-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S2x4096x128 : Shape := ⟨3, ![2, 4096, 128]⟩
abbrev S4096x4096 : Shape := ⟨2, ![4096, 4096]⟩
abbrev S1024x4096 : Shape := ⟨2, ![1024, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2x4096x128 : S_.BroadcastsInDim S2x4096x128 (![] : Fin 0 → Fin S2x4096x128.rank)
  reducesTo_S2x4096x128_S_d0_1_2 : S2x4096x128.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S1024x4096 .f32) (main_arg5 : FVec F S1024x4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S1024x4096 .f32 := Host.absf main_arg4
  let main_cst_6 : FVec F S_ .f32 := constant S_ .f32 0x7F800000#32
  let main_v20 : FVec F S1024x4096 .f32 := broadcastInDim S1024x4096 ![] bcast_S_S1024x4096 main_cst_6
  let main_v21 : IVec S1024x4096 1 := cmpf .olt main_v19 main_v20
  let main_c_7 : IVec S_ 1 := constantI S_ 1 1#1
  let main_v22 : IVec S_ 1 := (fun x v => Host.reduce IntOp.andi x v reducesTo_S1024x4096_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  main_v28

def fn {F : FTy → Type} [FloatOps F] (main_arg0 : FVec F S2x4096x4096 .f32) (main_arg1 : FVec F S2x4096x128 .f32) (main_arg2 : FVec F S2x4096x128 .f32) (main_arg3 : FVec F S4096x4096 .f32) (main_arg4 : FVec F S1024x4096 .f32) (main_arg5 : FVec F S1024x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x128 .f32 := Host.absf main_arg1
  let main_cst_0 : FVec F S_ .f32 := constant S_ .f32 0x7F800000#32
  let main_v5 : FVec F S2x4096x128 .f32 := broadcastInDim S2x4096x128 ![] bcast_S_S2x4096x128 main_cst_0
  let main_v6 : IVec S2x4096x128 1 := cmpf .olt main_v4 main_v5
  let main_c_1 : IVec S_ 1 := constantI S_ 1 1#1
  let main_v7 : IVec S_ 1 := (fun x v => Host.reduce IntOp.andi x v reducesTo_S2x4096x128_S_d0_1_2 h_S_) main_v6 main_c_1
  let main_v8 : IVec S_ 1 := andi main_v3 main_v7
  let main_v9 : FVec F S2x4096x128 .f32 := Host.absf main_arg2
  let main_cst_2 : FVec F S_ .f32 := constant S_ .f32 0x7F800000#32
  let main_v10 : FVec F S2x4096x128 .f32 := broadcastInDim S2x4096x128 ![] bcast_S_S2x4096x128 main_cst_2
  let main_v11 : IVec S2x4096x128 1 := cmpf .olt main_v9 main_v10
  let main_c_3 : IVec S_ 1 := constantI S_ 1 1#1
  let main_v12 : IVec S_ 1 := (fun x v => Host.reduce IntOp.andi x v reducesTo_S2x4096x128_S_d0_1_2 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_v13 main_v16
-- ==== Kernel.lean ====
abbrev S2x4096x4096 : Shape := ⟨3, ![2, 4096, 4096]⟩
abbrev S2x4096x128 : Shape := ⟨3, ![2, 4096, 128]⟩
abbrev S4096x4096 : Shape := ⟨2, ![4096, 4096]⟩
abbrev S1024x4096 : Shape := ⟨2, ![1024, 4096]⟩
abbrev S2x32x4096x128 : Shape := ⟨4, ![2, 32, 4096, 128]⟩
abbrev S1x1024x4096 : Shape := ⟨3, ![1, 1024, 4096]⟩
abbrev S128x4096 : Shape := ⟨2, ![128, 4096]⟩
abbrev S1x1024x128 : Shape := ⟨3, ![1, 1024, 128]⟩
abbrev S1x1x1024x128 : Shape := ⟨4, ![1, 1, 1024, 128]⟩
abbrev S1024x128 : Shape := ⟨2, ![1024, 128]⟩
abbrev S1024x64 : Shape := ⟨2, ![1024, 64]⟩
abbrev S2x8x4096x128 : Shape := ⟨4, ![2, 8, 4096, 128]⟩

abbrev nBuf : Space → Nat
  | .hbm => 13
  | .vmem => 26
  | .smem => 0
  | _ => 0

abbrev bufTy : (tb : Table) → Fin (tcTables nBuf tb) → BufTy
  | .hbm, ⟨0, _⟩ => ⟨S2x4096x4096, .f32⟩
  | .hbm, ⟨1, _⟩ => ⟨S2x4096x128, .f32⟩
  | .hbm, ⟨2, _⟩ => ⟨S2x4096x128, .f32⟩
  | .hbm, ⟨3, _⟩ => ⟨S4096x4096, .f32⟩
  | .hbm, ⟨4, _⟩ => ⟨S1024x4096, .f32⟩
  | .hbm, ⟨5, _⟩ => ⟨S1024x4096, .f32⟩
  | .hbm, ⟨6, _⟩ => ⟨S2x4096x4096, .bf16⟩
  | .hbm, ⟨7, _⟩ => ⟨S4096x4096, .bf16⟩
  | .hbm, ⟨8, _⟩ => ⟨S1024x4096, .bf16⟩
  | .hbm, ⟨9, _⟩ => ⟨S1024x4096, .bf16⟩
  | .hbm, ⟨10, _⟩ => ⟨S2x32x4096x128, .f32⟩
  | .hbm, ⟨11, _⟩ => ⟨S2x8x4096x128, .f32⟩
  | .hbm, ⟨12, _⟩ => ⟨S2x8x4096x128, .f32⟩
  | .local _ .vmem, ⟨0, _⟩ => ⟨S1x1024x4096, .bf16⟩
  | .local _ .vmem, ⟨1, _⟩ => ⟨S1x1024x4096, .bf16⟩
  | .local _ .vmem, ⟨2, _⟩ => ⟨S128x4096, .bf16⟩
  | .local _ .vmem, ⟨3, _⟩ => ⟨S128x4096, .bf16⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1x1024x128, .f32⟩
  | .local _ .vmem, ⟨9, _⟩ => ⟨S1x1x1024x128, .f32⟩
  | .local _ .vmem, ⟨10, _⟩ => ⟨S1x1024x4096, .bf16⟩
  | .local _ .vmem, ⟨11, _⟩ => ⟨S1x1024x4096, .bf16⟩
  | .local _ .vmem, ⟨12, _⟩ => ⟨S128x4096, .bf16⟩
  | .local _ .vmem, ⟨13, _⟩ => ⟨S128x4096, .bf16⟩
  | .local _ .vmem, ⟨14, _⟩ => ⟨S1x1024x128, .f32⟩
  | .local _ .vmem, ⟨15, _⟩ => ⟨S1x1024x128, .f32⟩
  | .local _ .vmem, ⟨16, _⟩ => ⟨S1x1024x128, .f32⟩
  | .local _ .vmem, ⟨17, _⟩ => ⟨S1x1024x128, .f32⟩
  | .local _ .vmem, ⟨18, _⟩ => ⟨S1x1x1024x128, .f32⟩
  | .local _ .vmem, ⟨19, _⟩ => ⟨S1x1x1024x128, .f32⟩
  | .local _ .vmem, ⟨20, _⟩ => ⟨S1x1024x4096, .bf16⟩
  | .local _ .vmem, ⟨21, _⟩ => ⟨S1x1024x4096, .bf16⟩
  | .local _ .vmem, ⟨22, _⟩ => ⟨S128x4096, .bf16⟩
  | .local _ .vmem, ⟨23, _⟩ => ⟨S128x4096, .bf16⟩
  | .local _ .vmem, ⟨24, _⟩ => ⟨S1x1x1024x128, .f32⟩
  | .local _ .vmem, ⟨25, _⟩ => ⟨S1x1x1024x128, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25

abbrev nD : Nat := 1
abbrev τ : Topo := Topo.v7x

variable {F : FTy → Type} [FloatOps F]

abbrev grid0 : Pipeline.Grid := ⟨3, ![2, 4, 32], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev grid1 : Pipeline.Grid := ⟨3, ![2, 4, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage1_0 : Fin 2 → Memref sig .tc .vmem S1x1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S128x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S1x1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x1x1024x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨3, ![2, 4, 8], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_2 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage2_0 : Fin 2 → Memref sig .tc .vmem S1x1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S128x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 2 → Memref sig .tc .vmem S1x1x1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

class Facts₀ : Prop where
  bitsLt_bf16_f32 : FTy.bits .bf16 < FTy.bits .f32
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S1024x128_o0_0_S1024x64 : S1024x128.Slices ![0, 0] S1024x64
  slices_S1024x128_o0_64_S1024x64 : S1024x128.Slices ![0, 64] S1024x64
  concatenates_S1024x64_S1024x64_S1024x128_d1 : Shape.Concatenates [S1024x64, S1024x64] S1024x128 1
  inb_S1x1x1024x128_S1x1x1024x128_0_0_0_0 : ∀ a, (![0, 0, 0, 0] : Fin 4 → Nat) a + S1x1x1024x128.size a ≤ S1x1x1024x128.size a
  h_S1x1x1024x128 : 0 < S1x1x1024x128.numel
  shapeCasts_S1x1x1024x128_S1024x128 : S1x1x1024x128.ShapeCasts S1024x128
  shapeCasts_S1024x128_S1x1x1024x128 : S1024x128.ShapeCasts S1x1x1024x128
  dot_S1024x4096_S128x4096_S1024x128_1_1_0_0_n_n_wf : DotDims.WF S1024x4096 S128x4096 S1024x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x4096.size a ≤ S2x4096x4096.size a
  hwx0_0 : ∀ i : grid0.Coords, EltTy.bits .bf16 = 32 ∨ (Rect.block (s := S2x4096x4096) S1x1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S4096x4096.size a
  hwx0_1 : ∀ i : grid0.Coords, EltTy.bits .bf16 = 32 ∨ (Rect.block (s := S4096x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S2x4096x128.size a
  hwx0_2 : ∀ i : grid0.Coords, EltTy.bits .f32 = 32 ∨ (Rect.block (s := S2x4096x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S2x4096x128.size a
  hwx0_3 : ∀ i : grid0.Coords, EltTy.bits .f32 = 32 ∨ (Rect.block (s := S2x4096x128) S1x1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x128.size a ≤ S2x32x4096x128.size a
  hwx0_4 : ∀ i : grid0.Coords, EltTy.bits .f32 = 32 ∨ (Rect.block (s := S2x32x4096x128) S1x1x1024x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x4096.size a ≤ S2x4096x4096.size a
  hwx1_0 : ∀ i : grid1.Coords, EltTy.bits .bf16 = 32 ∨ (Rect.block (s := S2x4096x4096) S1x1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x4096.size a ≤ S1024x4096.size a
  hwx1_1 : ∀ i : grid1.Coords, EltTy.bits .bf16 = 32 ∨ (Rect.block (s := S1024x4096) S128x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S2x4096x128.size a
  hwx1_2 : ∀ i : grid1.Coords, EltTy.bits .f32 = 32 ∨ (Rect.block (s := S2x4096x128) S1x1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x128.size a ≤ S2x4096x128.size a
  hwx1_3 : ∀ i : grid1.Coords, EltTy.bits .f32 = 32 ∨ (Rect.block (s := S2x4096x128) S1x1024x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1024x128.size a ≤ S2x8x4096x128.size a
  hwx1_4 : ∀ i : grid1.Coords, EltTy.bits .f32 = 32 ∨ (Rect.block (s := S2x8x4096x128) S1x1x1024x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x4096.size a ≤ S2x4096x4096.size a
  hwx2_0 : ∀ i : grid2.Coords, EltTy.bits .bf16 = 32 ∨ (Rect.block (s := S2x4096x4096) S1x1024x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x4096.size a ≤ S1024x4096.size a
  hwx2_1 : ∀ i : grid2.Coords, EltTy.bits .bf16 = 32 ∨ (Rect.block (s := S1024x4096) S128x4096.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1024x128.size a ≤ S2x8x4096x128.size a
  hwx2_2 : ∀ i : grid2.Coords, EltTy.bits .f32 = 32 ∨ (Rect.block (s := S2x8x4096x128) S1x1x1024x128.size (cc2_transform_2 i) (hinb2_2 i)).WholeWords (EltTy.packing .f32)

variable [Facts₀]

def dot_S1024x4096_S128x4096_S1024x128_1_1_0_0_n_n : DotDims S1024x4096 S128x4096 S1024x128 where
  lhsContracting := [1]
  rhsContracting := [1]
  lhsNonContracting := [0]
  rhsNonContracting := [0]
  lhsBatch := []
  rhsBatch := []
  wf := dot_S1024x4096_S128x4096_S1024x128_1_1_0_0_n_n_wf

abbrev win0_0 : Pipeline.Window sig grid0 :=
  Pipeline.Window.ofSpec (Memref.whole main_v0) S1x1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x1024x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0) S1x1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1x1024x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1x1024x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S1x1024x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S128x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1x1024x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x4096x4096 : Shape := ⟨3, ![2, 4096, 4096]⟩
abbrev S2x4096x128 : Shape := ⟨3, ![2, 4096, 128]⟩
abbrev S4096x4096 : Shape := ⟨2, ![4096, 4096]⟩
abbrev S1024x4096 : Shape := ⟨2, ![1024, 4096]⟩
abbrev S2x4096x32x128 : Shape := ⟨4, ![2, 4096, 32, 128]⟩
abbrev S2x32x4096x128 : Shape := ⟨4, ![2, 32, 4096, 128]⟩
abbrev S2x4096x1024 : Shape := ⟨3, ![2, 4096, 1024]⟩
abbrev S2x4096x8x128 : Shape := ⟨4, ![2, 4096, 8, 128]⟩
abbrev S2x8x4096x128 : Shape := ⟨4, ![2, 8, 4096, 128]⟩
abbrev S2x1x4096x128 : Shape := ⟨4, ![2, 1, 4096, 128]⟩
abbrev S2x32x4096x64 : Shape := ⟨4, ![2, 32, 4096, 64]⟩
abbrev S2x8x4096x64 : Shape := ⟨4, ![2, 8, 4096, 64]⟩

abbrev nBuf : Space → Nat
  | .hbm => 35
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x128, .f32⟩
  | .hbm, ⟨2, _⟩ => ⟨S2x4096x128, .f32⟩
  | .hbm, ⟨3, _⟩ => ⟨S4096x4096, .f32⟩
  | .hbm, ⟨4, _⟩ => ⟨S1024x4096, .f32⟩
  | .hbm, ⟨5, _⟩ => ⟨S1024x4096, .f32⟩
  | .hbm, ⟨6, _⟩ => ⟨S2x4096x4096, .f32⟩
  | .hbm, ⟨7, _⟩ => ⟨S2x4096x32x128, .f32⟩
  | .hbm, ⟨8, _⟩ => ⟨S2x32x4096x128, .f32⟩
  | .hbm, ⟨9, _⟩ => ⟨S2x4096x1024, .f32⟩
  | .hbm, ⟨10, _⟩ => ⟨S2x4096x8x128, .f32⟩
  | .hbm, ⟨11, _⟩ => ⟨S2x8x4096x128, .f32⟩
  | .hbm, ⟨12, _⟩ => ⟨S2x4096x1024, .f32⟩
  | .hbm, ⟨13, _⟩ => ⟨S2x4096x8x128, .f32⟩
  | .hbm, ⟨14, _⟩ => ⟨S2x8x4096x128, .f32⟩
  | .hbm, ⟨15, _⟩ => ⟨S2x1x4096x128, .f32⟩
  | .hbm, ⟨16, _⟩ => ⟨S2x1x4096x128, .f32⟩
  | .hbm, ⟨17, _⟩ => ⟨S2x32x4096x128, .f32⟩
  | .hbm, ⟨18, _⟩ => ⟨S2x32x4096x128, .f32⟩
  | .hbm, ⟨19, _⟩ => ⟨S2x32x4096x64, .f32⟩
  | .hbm, ⟨20, _⟩ => ⟨S2x32x4096x64, .f32⟩
  | .hbm, ⟨21, _⟩ => ⟨S2x32x4096x64, .f32⟩
  | .hbm, ⟨22, _⟩ => ⟨S2x32x4096x128, .f32⟩
  | .hbm, ⟨23, _⟩ => ⟨S2x32x4096x128, .f32⟩
  | .hbm, ⟨24, _⟩ => ⟨S2x32x4096x128, .f32⟩
  | .hbm, ⟨25, _⟩ => ⟨S2x32x4096x128, .f32⟩
  | .hbm, ⟨26, _⟩ => ⟨S2x8x4096x128, .f32⟩
  | .hbm, ⟨27, _⟩ => ⟨S2x8x4096x128, .f32⟩
  | .hbm, ⟨28, _⟩ => ⟨S2x8x4096x64, .f32⟩
  | .hbm, ⟨29, _⟩ => ⟨S2x8x4096x64, .f32⟩
  | .hbm, ⟨30, _⟩ => ⟨S2x8x4096x64, .f32⟩
  | .hbm, ⟨31, _⟩ => ⟨S2x8x4096x128, .f32⟩
  | .hbm, ⟨32, _⟩ => ⟨S2x8x4096x128, .f32⟩
  | .hbm, ⟨33, _⟩ => ⟨S2x8x4096x128, .f32⟩
  | .hbm, ⟨34, _⟩ => ⟨S2x8x4096x128, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]

class Facts₀ : Prop where
  shapeCasts_S2x4096x4096_S2x4096x32x128 : S2x4096x4096.ShapeCasts S2x4096x32x128
  transposes_S2x4096x32x128_S2x32x4096x128_0_2_1_3 : S2x4096x32x128.Transposes [0, 2, 1, 3] S2x32x4096x128
  shapeCasts_S2x4096x1024_S2x4096x8x128 : S2x4096x1024.ShapeCasts S2x4096x8x128
  transposes_S2x4096x8x128_S2x8x4096x128_0_2_1_3 : S2x4096x8x128.Transposes [0, 2, 1, 3] S2x8x4096x128
  bcast_S2x4096x128_S2x1x4096x128_0_2_3 : S2x4096x128.BroadcastsInDim S2x1x4096x128 (![0, 2, 3] : Fin 3 → Fin S2x1x4096x128.rank)
  bcast_S2x1x4096x128_S2x32x4096x128_0_1_2_3 : S2x1x4096x128.BroadcastsInDim S2x32x4096x128 (![0, 1, 2, 3] : Fin 4 → Fin S2x32x4096x128.rank)
  slices_S2x32x4096x128_S2x32x4096x64_0_0_0_0 : S2x32x4096x128.Slices ![0, 0, 0, 0] S2x32x4096x64
  slices_S2x32x4096x128_S2x32x4096x64_0_0_0_64 : S2x32x4096x128.Slices ![0, 0, 0, 64] S2x32x4096x64
  concatenates_S2x32x4096x64_S2x32x4096x64_S2x32x4096x128_d3 : Shape.Concatenates [S2x32x4096x64, S2x32x4096x64] S2x32x4096x128 3
  bcast_S2x1x4096x128_S2x8x4096x128_0_1_2_3 : S2x1x4096x128.BroadcastsInDim S2x8x4096x128 (![0, 1, 2, 3] : Fin 4 → Fin S2x8x4096x128.rank)
  slices_S2x8x4096x128_S2x8x4096x64_0_0_0_0 : S2x8x4096x128.Slices ![0, 0, 0, 0] S2x8x4096x64
  slices_S2x8x4096x128_S2x8x4096x64_0_0_0_64 : S2x8x4096x128.Slices ![0, 0, 0, 64] S2x8x4096x64
  concatenates_S2x8x4096x64_S2x8x4096x64_S2x8x4096x128_d3 : Shape.Concatenates [S2x8x4096x64, S2x8x4096x64] S2x8x4096x128 3
  dot_S2x4096x4096_S4096x4096_S2x4096x4096_2_1_01_0_n_n_wf : DotDims.WF S2x4096x4096 S4096x4096 S2x4096x4096 [2] [1] [0, 1] [0] [] []
  dot_S2x4096x4096_S1024x4096_S2x4096x1024_2_1_01_0_n_n_wf : DotDims.WF S2x4096x4096 S1024x4096 S2x4096x1024 [2] [1] [0, 1] [0] [] []

variable [Facts₀]

def dot_S2x4096x4096_S4096x4096_S2x4096x4096_2_1_01_0_n_n : DotDims S2x4096x4096 S4096x4096 S2x4096x4096 where
  lhsContracting := [2]
  rhsContracting := [1]
  lhsNonContracting := [0, 1]
  rhsNonContracting := [0]
  lhsBatch := []
  rhsBatch := []
  wf := dot_S2x4096x4096_S4096x4096_S2x4096x4096_2_1_01_0_n_n_wf
def dot_S2x4096x4096_S1024x4096_S2x4096x1024_2_1_01_0_n_n : DotDims S2x4096x4096 S1024x4096 S2x4096x1024 where
  lhsContracting := [2]
  rhsContracting := [1]
  lhsNonContracting := [0, 1]
  rhsNonContracting := [0]
  lhsBatch := []
  rhsBatch := []
  wf := dot_S2x4096x4096_S1024x4096_S2x4096x1024_2_1_01_0_n_n_wf

class Facts : Prop extends Facts₀ where

variable [Facts]
-- ==== Proof.Spec.lean ====
/-
  The function both programs compute, entry by entry, on the extended reals.

  For a batch entry b, a position s, a head h and a lane d, the projection of the hidden row (b, s) on row
  h * 128 + d of a weight matrix is  P b h s d = ∑ k, H (b, s, k) * W (h * 128 + d, k).  The rotary embedding pairs lane d
  with lane d + 64 (for d < 64) or d - 64 (for d ≥ 64): the rotated vector is -P (d + 64) on the lower half and
  P (d - 64) on the upper half, and the result is  P d * cos (b, s, d) + rotated d * sin (b, s, d).  The query result has
  32 heads over a 4096-row weight matrix, the key result 8 heads over a 1024-row one, and the value result is
  the bare projection with 8 heads.
-/
import Idealize.ShloMosaic.PureOps.Ideal.Laws
import Idealize.ShloMosaic.Lib.ValueIdx

noncomputable section

namespace Cert.Spec

open Idealize.ShloMosaic Idealize.ShloMosaic.ValueIdx

/-- The hidden states, [batch, position, feature]. -/
abbrev Hid : Shape := ⟨3, ![2, 4096, 4096]⟩
/-- A rotary table, [batch, position, lane]. -/
abbrev Tab : Shape := ⟨3, ![2, 4096, 128]⟩
/-- The query weights, [head * 128 + lane, feature]. -/
abbrev Wq : Shape := ⟨2, ![4096, 4096]⟩
/-- The key or value weights, [head * 128 + lane, feature]. -/
abbrev Wk : Shape := ⟨2, ![1024, 4096]⟩
/-- The query result, [batch, head, position, lane]. -/
abbrev Qo : Shape := ⟨4, ![2, 32, 4096, 128]⟩
/-- The key or value result, [batch, head, position, lane]. -/
abbrev Ko : Shape := ⟨4, ![2, 8, 4096, 128]⟩

/-- The weight row of head `h`, lane `d`, among 32 heads. -/
def rowQ (h : Fin 32) (d : Fin 128) : Fin 4096 := ⟨h.val * 128 + d.val, by omega⟩
/-- The weight row of head `h`, lane `d`, among 8 heads. -/
def rowK (h : Fin 8) (d : Fin 128) : Fin 1024 := ⟨h.val * 128 + d.val, by omega⟩

/-- The rotated half-pairing of a 128-lane vector: minus the upper partner on the lower half, the lower partner on
    the upper half. -/
def rot (P : Fin 128 → EReal) (d : Fin 128) : EReal :=
  if h : d.val < 64 then -(P ⟨d.val + 64, by omega⟩) else P ⟨d.val - 64, by omega⟩

/-- The rotary embedding of a 128-lane vector `P` at lane `d`, with the table entries `c` and `s` of that lane. -/
def rope (P : Fin 128 → EReal) (c s : EReal) (d : Fin 128) : EReal := P d * c + rot P d * s

/-- The query projection at (b, h, s, ·). -/
def projQ (H : Hid.Idx → EReal) (W : Wq.Idx → EReal) (b : Fin 2) (h : Fin 32) (s : Fin 4096) (d : Fin 128) : EReal :=
  ∑ k : Fin 4096, H (ix3 b s k) * W (ix2 (rowQ h d) k)

/-- The key or value projection at (b, h, s, ·). -/
def projK (H : Hid.Idx → EReal) (W : Wk.Idx → EReal) (b : Fin 2) (h : Fin 8) (s : Fin 4096) (d : Fin 128) : EReal :=
  ∑ k : Fin 4096, H (ix3 b s k) * W (ix2 (rowK h d) k)

/-- The query result at coordinates. -/
def qAt (H : Hid.Idx → EReal) (W : Wq.Idx → EReal) (C S : Tab.Idx → EReal) (b : Fin 2) (h : Fin 32) (s : Fin 4096) (d : Fin 128) : EReal :=
  rope (projQ H W b h s) (C (ix3 b s d)) (S (ix3 b s d)) d

/-- The key result at coordinates. -/
def kAt (H : Hid.Idx → EReal) (W : Wk.Idx → EReal) (C S : Tab.Idx → EReal) (b : Fin 2) (h : Fin 8) (s : Fin 4096) (d : Fin 128) : EReal :=
  rope (projK H W b h s) (C (ix3 b s d)) (S (ix3 b s d)) d

/-- The query result as an array. -/
def Gq (H : Hid.Idx → EReal) (W : Wq.Idx → EReal) (C S : Tab.Idx → EReal) : Qo.Idx → EReal :=
  fun i => qAt H W C S (i 0) (i 1) (i 2) (i 3)

/-- The key result as an array. -/
def Gk (H : Hid.Idx → EReal) (W : Wk.Idx → EReal) (C S : Tab.Idx → EReal) : Ko.Idx → EReal :=
  fun i => kAt H W C S (i 0) (i 1) (i 2) (i 3)

/-- The value result as an array: the bare projection. -/
def Gv (H : Hid.Idx → EReal) (W : Wk.Idx → EReal) : Ko.Idx → EReal :=
  fun i => projK H W (i 0) (i 1) (i 2) (i 3)

theorem Gq_ix4 (H : Hid.Idx → EReal) (W : Wq.Idx → EReal) (C S : Tab.Idx → EReal) (b : Fin 2) (h : Fin 32) (s : Fin 4096) (d : Fin 128) :
    Gq H W C S (ix4 b h s d) = qAt H W C S b h s d := rfl

theorem Gk_ix4 (H : Hid.Idx → EReal) (W : Wk.Idx → EReal) (C S : Tab.Idx → EReal) (b : Fin 2) (h : Fin 8) (s : Fin 4096) (d : Fin 128) :
    Gk H W C S (ix4 b h s d) = kAt H W C S b h s d := rfl

theorem Gv_ix4 (H : Hid.Idx → EReal) (W : Wk.Idx → EReal) (b : Fin 2) (h : Fin 8) (s : Fin 4096) (d : Fin 128) :
    Gv H W (ix4 b h s d) = projK H W b h s d := rfl

/-- Lower half: the rotated entry is minus the upper partner. -/
theorem rot_lo (P : Fin 128 → EReal) (d : Fin 128) (h : d.val < 64) : rot P d = -(P ⟨d.val + 64, by omega⟩) := by
  unfold rot; rw [dif_pos h]

/-- Upper half: the rotated entry is the lower partner. -/
theorem rot_hi (P : Fin 128 → EReal) (d : Fin 128) (h : ¬ d.val < 64) : rot P d = P ⟨d.val - 64, by omega⟩ := by
  unfold rot; rw [dif_neg h]

end Cert.Spec

end
-- ==== Proof.Block.lean ====
/-
  What one grid point's body stores, entry by entry, at the ideal values.

  The body multiplies its 1024 × 4096 block of hidden rows with the transposed 128 × 4096 block of weight rows, so entry
  (p, d) of the product is ∑ k, x0 (0, p, k) * x1 (d, k); the rotary body then stores the rotary embedding of row p of that
  product with the table blocks' entries (0, p, d); the plain body stores the product itself.
-/
import proofs.«145036_j42640435315444_1_alg».proof.Proof.Gen.KernelIdeal.Skeleton
import proofs.«145036_j42640435315444_1_alg».proof.Proof.Spec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## The product: both operands are contracted along their second axis -/

/-- The left operand's row coordinate is the output's row. -/
theorem lhs_mm_0 (i : S1024x128.Idx) (q : dot_S1024x4096_S128x4096_S1024x128_1_1_0_0_n_n.contr.Idx) :
    (dot_S1024x4096_S128x4096_S1024x128_1_1_0_0_n_n.lhsIdx i q 0).val = (i 0).val := by
  unfold DotDims.lhsIdx
  rw [dif_neg (show ¬(0 : Fin S1024x4096.rank) ∈ dot_S1024x4096_S128x4096_S1024x128_1_1_0_0_n_n.lhsBatch by decide), dif_pos (show (0 : Fin S1024x4096.rank) ∈ dot_S1024x4096_S128x4096_S1024x128_1_1_0_0_n_n.lhsNonContracting by decide)]
  rfl

/-- The left operand's column coordinate is the contraction position. -/
theorem lhs_mm_1 (i : S1024x128.Idx) (q : dot_S1024x4096_S128x4096_S1024x128_1_1_0_0_n_n.contr.Idx) :
    (dot_S1024x4096_S128x4096_S1024x128_1_1_0_0_n_n.lhsIdx i q 1).val = (q ⟨0, by decide⟩).val :=
  dot_S1024x4096_S128x4096_S1024x128_1_1_0_0_n_n.lhsIdx_val_of_single rfl i q

/-- The right operand's row coordinate is the output's column. -/
theorem rhs_mm_0 (i : S1024x128.Idx) (q : dot_S1024x4096_S128x4096_S1024x128_1_1_0_0_n_n.contr.Idx) :
    (dot_S1024x4096_S128x4096_S1024x128_1_1_0_0_n_n.rhsIdx i q 0).val = (i 1).val := by
  unfold DotDims.rhsIdx
  rw [dif_neg (show ¬(0 : Fin S128x4096.rank) ∈ dot_S1024x4096_S128x4096_S1024x128_1_1_0_0_n_n.rhsBatch by decide), dif_pos (show (0 : Fin S128x4096.rank) ∈ dot_S1024x4096_S128x4096_S1024x128_1_1_0_0_n_n.rhsNonContracting by decide)]
  rfl

/-- The right operand's column coordinate is the contraction position. -/
theorem rhs_mm_1 (i : S1024x128.Idx) (q : dot_S1024x4096_S128x4096_S1024x128_1_1_0_0_n_n.contr.Idx) :
    (dot_S1024x4096_S128x4096_S1024x128_1_1_0_0_n_n.rhsIdx i q 1).val = (q ⟨0, by decide⟩).val :=
  dot_S1024x4096_S128x4096_S1024x128_1_1_0_0_n_n.rhsIdx_val_of_single rfl i q

/-- The product into the zero splat at (p, e): row p of the left operand against row e of the right one. -/
theorem mm_apply (a : FVec Ideal S1024x4096 .bf16) (b : FVec Ideal S128x4096 .bf16) (p : Fin 1024) (e : Fin 128) :
    matmul (F := Ideal) dot_S1024x4096_S128x4096_S1024x128_1_1_0_0_n_n none a b (constant (F := Ideal) S1024x128 .f32 0x00000000#32) (ix2 p e)
      = ∑ k : Fin 4096, a (ix2 p k) * b (ix2 e k) := by
  simp only [matmul]
  rw [Ideal.matmul_constant_zero_apply, ← Equiv.sum_comp (ValueIdx.contrEquiv1 dot_S1024x4096_S128x4096_S1024x128_1_1_0_0_n_n 4096 rfl rfl).symm]
  refine Finset.sum_congr rfl fun k _ => ?_
  have hk := ValueIdx.contrEquiv1_symm_val dot_S1024x4096_S128x4096_S1024x128_1_1_0_0_n_n 4096 rfl rfl k
  have el : dot_S1024x4096_S128x4096_S1024x128_1_1_0_0_n_n.lhsIdx (ix2 p e) ((ValueIdx.contrEquiv1 dot_S1024x4096_S128x4096_S1024x128_1_1_0_0_n_n 4096 rfl rfl).symm k) = ix2 p k := funext fun a => Fin.ext (by
    match a with
    | ⟨0, _⟩ => exact lhs_mm_0 _ _
    | ⟨1, _⟩ => exact (lhs_mm_1 _ _).trans hk)
  have er : dot_S1024x4096_S128x4096_S1024x128_1_1_0_0_n_n.rhsIdx (ix2 p e) ((ValueIdx.contrEquiv1 dot_S1024x4096_S128x4096_S1024x128_1_1_0_0_n_n 4096 rfl rfl).symm k) = ix2 e k := funext fun a => Fin.ext (by
    match a with
    | ⟨0, _⟩ => exact rhs_mm_0 _ _
    | ⟨1, _⟩ => exact (rhs_mm_1 _ _).trans hk)
  rw [el, er]

/-! ## The shape casts: a leading unit axis dropped or added -/

/-- The [1, 1024, 4096] block viewed [1024, 4096] reads (0, p, k) at (p, k). -/
theorem cast_hid_apply {α : Type} (x : S1x1024x4096.Idx → α) (p : Fin 1024) (k : Fin 4096) :
    shapeCast S1024x4096 x shapeCasts_S1x1024x4096_S1024x4096 (ix2 p k) = x (ix3 (0 : Fin 1) p k) :=
  shapeCast_apply x shapeCasts_S1x1024x4096_S1024x4096 (ix2 p k) (ix3 (0 : Fin 1) p k) (by
    rw [Shape.rowMajor_val_three, Shape.rowMajor_val_two]
    show (0 * 1024 + p.val) * 4096 + k.val = p.val * 4096 + k.val
    omega)

/-- A [1, 1024, 128] table block viewed [1024, 128] reads (0, p, d) at (p, d). -/
theorem cast_tab_apply {α : Type} (x : S1x1024x128.Idx → α) (p : Fin 1024) (d : Fin 128) :
    shapeCast S1024x128 x shapeCasts_S1x1024x128_S1024x128 (ix2 p d) = x (ix3 (0 : Fin 1) p d) :=
  shapeCast_apply x shapeCasts_S1x1024x128_S1024x128 (ix2 p d) (ix3 (0 : Fin 1) p d) (by
    rw [Shape.rowMajor_val_three, Shape.rowMajor_val_two]
    show (0 * 1024 + p.val) * 128 + d.val = p.val * 128 + d.val
    omega)

/-- A [1024, 128] value stored as a [1, 1, 1024, 128] block reads (p, d) at (0, 0, p, d). -/
theorem cast_out_apply {α : Type} (x : S1024x128.Idx → α) (p : Fin 1024) (d : Fin 128) :
    shapeCast S1x1x1024x128 x shapeCasts_S1024x128_S1x1x1024x128 (ix4 (0 : Fin 1) (0 : Fin 1) p d) = x (ix2 p d) :=
  shapeCast_apply x shapeCasts_S1024x128_S1x1x1024x128 (ix4 (0 : Fin 1) (0 : Fin 1) p d) (ix2 p d) (by
    rw [Shape.rowMajor_val_two, Shape.rowMajor_val_four]
    show p.val * 128 + d.val = ((0 * 1 + 0) * 1024 + p.val) * 128 + d.val
    omega)

/-- The product of the viewed blocks at (p, e), over the loaded blocks' entries. -/
theorem prod_apply (x0 : Vec Ideal S1x1024x4096 .bf16) (x1 : Vec Ideal S128x4096 .bf16) (p : Fin 1024) (e : Fin 128) :
    matmul (F := Ideal) (φ₁ := .bf16) (φ₂ := .bf16) dot_S1024x4096_S128x4096_S1024x128_1_1_0_0_n_n none
        (shapeCast S1024x4096 x0 shapeCasts_S1x1024x4096_S1024x4096) (shapeCast S128x4096 x1 shapeCasts_S128x4096_S128x4096)
        (constant (F := Ideal) S1024x128 .f32 0x00000000#32) (ix2 p e)
      = ∑ k : Fin 4096, x0 (ix3 (0 : Fin 1) p k) * x1 (ix2 e k) := by
  rw [mm_apply, shapeCast_self]
  exact Finset.sum_congr rfl fun k _ => by rw [cast_hid_apply]

/-! ## The rotated half-pairing: two lane slices, a negation, and their concatenation -/

/-- The lower lane slice reads the same coordinates. -/
theorem slice_lo_apply {α : Type} (v : S1024x128.Idx → α) (p : Fin 1024) (c : Fin 64) :
    extractStridedSlice S1024x64 ![0, 0] v slices_S1024x128_o0_0_S1024x64 (ix2 p c) = v (ix2 p (⟨c.val, by omega⟩ : Fin 128)) :=
  extractStridedSlice_apply ![0, 0] v slices_S1024x128_o0_0_S1024x64 (ix2 p c) (ix2 p (⟨c.val, by omega⟩ : Fin 128)) (fun a => by
    match a with
    | ⟨0, _⟩ => show p.val = 0 + p.val; omega
    | ⟨1, _⟩ => show c.val = 0 + c.val; omega)

/-- The upper lane slice reads 64 lanes further. -/
theorem slice_hi_apply {α : Type} (v : S1024x128.Idx → α) (p : Fin 1024) (c : Fin 64) :
    extractStridedSlice S1024x64 ![0, 64] v slices_S1024x128_o0_64_S1024x64 (ix2 p c) = v (ix2 p (⟨c.val + 64, by omega⟩ : Fin 128)) :=
  extractStridedSlice_apply ![0, 64] v slices_S1024x128_o0_64_S1024x64 (ix2 p c) (ix2 p (⟨c.val + 64, by omega⟩ : Fin 128)) (fun a => by
    match a with
    | ⟨0, _⟩ => show p.val = 0 + p.val; omega
    | ⟨1, _⟩ => show c.val + 64 = 64 + c.val; omega)

/-- Zero minus the upper slice, at a lane: minus the entry 64 lanes further. -/
theorem neg_hi_apply (v : FVec Ideal S1024x128 .f32) (p : Fin 1024) (c : Fin 64) :
    subf (F := Ideal) (broadcast S1024x64 (Scalar.ofBits (F := Ideal) .f32 0x00000000#32))
        (extractStridedSlice S1024x64 ![0, 64] v slices_S1024x128_o0_64_S1024x64) (ix2 p c)
      = -(v (ix2 p (⟨c.val + 64, by omega⟩ : Fin 128))) := by
  rw [subf_apply, slice_hi_apply]
  show Ideal.ofBits .f32 0x00000000#32 - (v (ix2 p (⟨c.val + 64, by omega⟩ : Fin 128)) : EReal) = _
  rw [Ideal.ofBits_zero_f32, zero_sub]

/-- The concatenation of the negated upper slice and the lower slice is the rotated half-pairing of the row. -/
theorem rot_apply (v : FVec Ideal S1024x128 .f32) (p : Fin 1024) (d : Fin 128) :
    concatenate S1024x128 1
        [⟨S1024x64, subf (F := Ideal) (broadcast S1024x64 (Scalar.ofBits (F := Ideal) .f32 0x00000000#32))
            (extractStridedSlice S1024x64 ![0, 64] v slices_S1024x128_o0_64_S1024x64)⟩,
         ⟨S1024x64, extractStridedSlice S1024x64 ![0, 0] v slices_S1024x128_o0_0_S1024x64⟩]
        concatenates_S1024x64_S1024x64_S1024x128_d1 (ix2 p d)
      = Cert.Spec.rot (fun e => v (ix2 p e)) d := by
  by_cases h : d.val < 64
  · rw [Cert.Spec.rot_lo _ d h]
    refine (concatenate_pair_apply_left (t := S1024x128) (s₁ := S1024x64) (s₂ := S1024x64) (1 : Fin 2) _ _
      concatenates_S1024x64_S1024x64_S1024x128_d1 (ix2 p d) rfl (ix2 p (⟨d.val, h⟩ : Fin 64)) (fun b => by
        match b with
        | ⟨0, _⟩ => rfl
        | ⟨1, _⟩ => rfl)).trans ?_
    exact neg_hi_apply v p ⟨d.val, h⟩
  · rw [Cert.Spec.rot_hi _ d h]
    refine (concatenate_pair_apply_right (t := S1024x128) (s₁ := S1024x64) (s₂ := S1024x64) (1 : Fin 2) _ _
      concatenates_S1024x64_S1024x64_S1024x128_d1 (ix2 p d) rfl rfl (ix2 p (⟨d.val - 64, by omega⟩ : Fin 64))
      (fun b hb => by
        match b with
        | ⟨0, _⟩ => rfl
        | ⟨1, _⟩ => exact absurd rfl hb)
      (by show d.val - 64 + 64 = d.val; omega)).trans ?_
    exact slice_lo_apply v p ⟨d.val - 64, by omega⟩

/-! ## The rotary body -/

/-- The body's arithmetic over the product block v, the cosine block c and the sine block s, at (p, d). -/
theorem rope_core (v c s : FVec Ideal S1024x128 .f32) (p : Fin 1024) (d : Fin 128) :
    addf (F := Ideal) (mulf (F := Ideal) v c)
        (mulf (F := Ideal)
          (concatenate S1024x128 1
            [⟨S1024x64, subf (F := Ideal) (broadcast S1024x64 (Scalar.ofBits (F := Ideal) .f32 0x00000000#32))
                (extractStridedSlice S1024x64 ![0, 64] v slices_S1024x128_o0_64_S1024x64)⟩,
             ⟨S1024x64, extractStridedSlice S1024x64 ![0, 0] v slices_S1024x128_o0_0_S1024x64⟩]
            concatenates_S1024x64_S1024x64_S1024x128_d1) s) (ix2 p d)
      = Cert.Spec.rope (fun e => v (ix2 p e)) (c (ix2 p d)) (s (ix2 p d)) d := by
  unfold Cert.Spec.rope
  rw [addf_apply, mulf_apply, mulf_apply, rot_apply]

/-- The rotary embedding of equal vectors with equal table entries. -/
theorem rope_congr (P Q : Fin 128 → EReal) (c c' s s' : EReal) (d : Fin 128) (hP : ∀ e, P e = Q e) (hc : c = c') (hs : s = s') :
    Cert.Spec.rope P c s d = Cert.Spec.rope Q c' s' d := by
  rw [funext hP, hc, hs]

/-- The rotary body's stored block at (0, 0, p, d): the rotary embedding of row p of the product. -/
theorem rope_pay_apply (x0 : Vec Ideal S1x1024x4096 .bf16) (x1 : Vec Ideal S128x4096 .bf16) (x2 x3 : Vec Ideal S1x1024x128 .f32)
    (p : Fin 1024) (d : Fin 128) :
    k0_pay1 (F := Ideal) x0 x1 x2 x3 (ix4 (0 : Fin 1) (0 : Fin 1) p d)
      = Cert.Spec.rope (fun e => ∑ k : Fin 4096, x0 (ix3 (0 : Fin 1) p k) * x1 (ix2 e k))
          (x2 (ix3 (0 : Fin 1) p d)) (x3 (ix3 (0 : Fin 1) p d)) d := by
  unfold k0_pay1
  refine (cast_out_apply _ p d).trans ?_
  refine (rope_core _ _ _ p d).trans ?_
  exact rope_congr _ _ _ _ _ _ d (fun e => prod_apply x0 x1 p e) (cast_tab_apply x2 p d) (cast_tab_apply x3 p d)

/-- The second rotary body is the same term. -/
theorem k1_pay1_eq (x0 : Vec Ideal S1x1024x4096 .bf16) (x1 : Vec Ideal S128x4096 .bf16) (x2 x3 : Vec Ideal S1x1024x128 .f32) :
    k1_pay1 (F := Ideal) x0 x1 x2 x3 = k0_pay1 (F := Ideal) x0 x1 x2 x3 := rfl

/-- The plain body's stored block at (0, 0, p, d): the product's entry. -/
theorem plain_pay_apply (x0 : Vec Ideal S1x1024x4096 .bf16) (x1 : Vec Ideal S128x4096 .bf16) (p : Fin 1024) (d : Fin 128) :
    k2_pay1 (F := Ideal) x0 x1 (ix4 (0 : Fin 1) (0 : Fin 1) p d) = ∑ k : Fin 4096, x0 (ix3 (0 : Fin 1) p k) * x1 (ix2 d k) := by
  unfold k2_pay1
  exact (cast_out_apply _ p d).trans (prod_apply x0 x1 p d)

end Cert.KernelIdeal.Block

end
-- ==== Proof.RegionQ.lean ====
/-
  The query result array after its grid has run.

  Grid point t = (b, st, hh) reads the 1024 hidden rows st * 1024 … of batch entry b, the 128 weight rows hh * 128 … and
  the matching 1024 rows of the two rotary tables, and writes block (b, hh, st) of the result: rows st * 1024 … of head hh.
  Every block of the result is one point's, so the array ends as the whole-array function `Spec.Gq` of the
  arrays the grid was entered with.
-/
import proofs.«145036_j42640435315444_1_alg».proof.Proof.Gen.KernelIdeal.Frame
import proofs.«145036_j42640435315444_1_alg».proof.Proof.Block
import proofs.«145036_j42640435315444_1_alg».proof.Proof.Spec
import Idealize.ShloMosaic.Lib.Pipeline.Value
import Idealize.ShloMosaic.Lib.ValueIdx

set_option maxRecDepth 16384

noncomputable section

namespace Cert.KernelIdeal.RegionQ

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The result window's block index at point t, axis by axis: the grid runs with the head fastest, then the row
    tile, then the batch entry. -/
theorem idx_out : ∀ t : Fin cfg0.N, win0_4.index t (0 : Fin 4) = t.val / 128
    ∧ win0_4.index t (1 : Fin 4) = t.val % 32
    ∧ win0_4.index t (2 : Fin 4) = t.val / 32 % 4
    ∧ win0_4.index t (3 : Fin 4) = 0 :=
  (by decide +kernel : ∀ t : Fin grid0.N, _)

/-- The input windows move with the result window: the hidden rows and the tables with (batch entry, row tile), the
    weight rows with the head. -/
theorem idx_in : ∀ t : Fin cfg0.N, win0_0.index t (0 : Fin 3) = win0_4.index t (0 : Fin 4)
    ∧ win0_0.index t (1 : Fin 3) = win0_4.index t (2 : Fin 4)
    ∧ win0_0.index t (2 : Fin 3) = 0
    ∧ win0_1.index t (0 : Fin 2) = win0_4.index t (1 : Fin 4)
    ∧ win0_1.index t (1 : Fin 2) = 0
    ∧ win0_2.index t (0 : Fin 3) = win0_4.index t (0 : Fin 4)
    ∧ win0_2.index t (1 : Fin 3) = win0_4.index t (2 : Fin 4)
    ∧ win0_2.index t (2 : Fin 3) = 0
    ∧ win0_3.index t (0 : Fin 3) = win0_4.index t (0 : Fin 4)
    ∧ win0_3.index t (1 : Fin 3) = win0_4.index t (2 : Fin 4)
    ∧ win0_3.index t (2 : Fin 3) = 0 :=
  (by decide +kernel : ∀ t : Fin grid0.N, _)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- One point's stored block is the matching block of the result function, given what its four input blocks hold:
    hidden rows `s p` of batch entry `b`, the weight rows of head `hh`, and rows `s p` of the two tables. -/
theorem block_eq (H : Cert.Spec.Hid.Idx → EReal) (W : Cert.Spec.Wq.Idx → EReal) (C S : Cert.Spec.Tab.Idx → EReal)
    (x0 : Vec Ideal S1x1024x4096 .bf16) (x1 : Vec Ideal S128x4096 .bf16) (x2 x3 : Vec Ideal S1x1024x128 .f32)
    (b : Fin 2) (hh : Fin 32) (s : Fin 1024 → Fin 4096)
    (h0 : ∀ (p : Fin 1024) (k : Fin 4096), x0 (ix3 (0 : Fin 1) p k) = H (ix3 b (s p) k))
    (h1 : ∀ (e : Fin 128) (k : Fin 4096), x1 (ix2 e k) = W (ix2 (Cert.Spec.rowQ hh e) k))
    (h2 : ∀ (p : Fin 1024) (d : Fin 128), x2 (ix3 (0 : Fin 1) p d) = C (ix3 b (s p) d))
    (h3 : ∀ (p : Fin 1024) (d : Fin 128), x3 (ix3 (0 : Fin 1) p d) = S (ix3 b (s p) d))
    (p : Fin 1024) (d : Fin 128) :
    k0_pay1 (F := Ideal) x0 x1 x2 x3 (ix4 (0 : Fin 1) (0 : Fin 1) p d) = Cert.Spec.Gq H W C S (ix4 b hh (s p) d) := by
  rw [Cert.KernelIdeal.Block.rope_pay_apply, Cert.Spec.Gq_ix4, h2, h3]
  unfold Cert.Spec.qAt
  have hP : (fun e => ∑ k : Fin 4096, x0 (ix3 (0 : Fin 1) p k) * x1 (ix2 e k)) = Cert.Spec.projQ H W b hh (s p) := by
    funext e
    unfold Cert.Spec.projQ
    exact Finset.sum_congr rfl fun k _ => by rw [h0, h1]
  rw [hP]

/-- What point `t` writes back is block `t` of the result function of the arrays as the grid finds them. -/
theorem flushed_eq (c : Dev nD) (t : Fin cfg0.N) :
    (dat0 V c).flushed 4 t = ((cfg0.win 4).blk t).view.read (Elt Ideal)
      (Cert.Spec.Gq (V c main_v0) (V c main_v1) (V c main_arg1) (V c main_arg2)) := by
  show (cfg0.win 4).cut (grid0.coords t) ((dat0 V c).after 4 t) = _
  rw [after0_4]
  unfold out0_4
  rw [View.canon_unit_zero hz4]
  simp only [View.ld_unit_zero (S := S1x1024x4096) hz3, View.ld_unit_zero (S := S128x4096) hz2, View.ld_unit_zero (S := S1x1024x128) hz3]
  obtain ⟨o0, o1, o2, o3⟩ := idx_out t
  obtain ⟨e00, e01, e02, e10, e11, e20, e21, e22, e30, e31, e32⟩ := idx_in t
  funext j
  have ht : t.val < 256 := t.isLt
  let b : Fin 2 := ⟨win0_4.index t (0 : Fin 4), by omega⟩
  let hh : Fin 32 := ⟨win0_4.index t (1 : Fin 4), by omega⟩
  let s : Fin 1024 → Fin 4096 := fun p => ⟨win0_4.index t (2 : Fin 4) * 1024 + p.val, by have := p.isLt; omega⟩
  show k0_pay1 (F := Ideal) (iblk0 V c 0 t) (iblk0 V c 1 t) (iblk0 V c 2 t) (iblk0 V c 3 t) j
      = Cert.Spec.Gq (V c main_v0) (V c main_v1) (V c main_arg1) (V c main_arg2) (((cfg0.win 4).blk t).view.emb j)
  have hj : (j : S1x1x1024x128.Idx) = ix4 (0 : Fin 1) (0 : Fin 1) (j 2) (j 3) := funext fun a => by
    match a with
    | ⟨0, _⟩ => exact Fin.ext (by show (j 0).val = 0; have h : (j 0).val < 1 := (j 0).isLt; omega)
    | ⟨1, _⟩ => exact Fin.ext (by show (j 1).val = 0; have h : (j 1).val < 1 := (j 1).isLt; omega)
    | ⟨2, _⟩ => rfl
    | ⟨3, _⟩ => rfl
  refine (congrArg (k0_pay1 (F := Ideal) (iblk0 V c 0 t) (iblk0 V c 1 t) (iblk0 V c 2 t) (iblk0 V c 3 t)) hj).trans ?_
  refine (block_eq (V c main_v0) (V c main_v1) (V c main_arg1) (V c main_arg2)
    (iblk0 V c 0 t) (iblk0 V c 1 t) (iblk0 V c 2 t) (iblk0 V c 3 t) b hh s ?_ ?_ ?_ ?_ (j 2) (j 3)).trans ?_
  · intro p k
    show V c main_v0 (((cfg0.win 0).blk t).view.emb (ix3 (0 : Fin 1) p k)) = V c main_v0 (ix3 b (s p) k)
    refine congrArg _ (funext fun a => Fin.ext ?_)
    match a with
    | ⟨0, _⟩ => show win0_0.index t (0 : Fin 3) * 1 + 1 * 0 = win0_4.index t (0 : Fin 4); omega
    | ⟨1, _⟩ => show win0_0.index t (1 : Fin 3) * 1024 + 1 * p.val = win0_4.index t (2 : Fin 4) * 1024 + p.val; omega
    | ⟨2, _⟩ => show win0_0.index t (2 : Fin 3) * 4096 + 1 * k.val = k.val; omega
  · intro e k
    show V c main_v1 (((cfg0.win 1).blk t).view.emb (ix2 e k)) = V c main_v1 (ix2 (Cert.Spec.rowQ hh e) k)
    refine congrArg _ (funext fun a => Fin.ext ?_)
    match a with
    | ⟨0, _⟩ => show win0_1.index t (0 : Fin 2) * 128 + 1 * e.val = win0_4.index t (1 : Fin 4) * 128 + e.val; omega
    | ⟨1, _⟩ => show win0_1.index t (1 : Fin 2) * 4096 + 1 * k.val = k.val; omega
  · intro p d
    show V c main_arg1 (((cfg0.win 2).blk t).view.emb (ix3 (0 : Fin 1) p d)) = V c main_arg1 (ix3 b (s p) d)
    refine congrArg _ (funext fun a => Fin.ext ?_)
    match a with
    | ⟨0, _⟩ => show win0_2.index t (0 : Fin 3) * 1 + 1 * 0 = win0_4.index t (0 : Fin 4); omega
    | ⟨1, _⟩ => show win0_2.index t (1 : Fin 3) * 1024 + 1 * p.val = win0_4.index t (2 : Fin 4) * 1024 + p.val; omega
    | ⟨2, _⟩ => show win0_2.index t (2 : Fin 3) * 128 + 1 * d.val = d.val; omega
  · intro p d
    show V c main_arg2 (((cfg0.win 3).blk t).view.emb (ix3 (0 : Fin 1) p d)) = V c main_arg2 (ix3 b (s p) d)
    refine congrArg _ (funext fun a => Fin.ext ?_)
    match a with
    | ⟨0, _⟩ => show win0_3.index t (0 : Fin 3) * 1 + 1 * 0 = win0_4.index t (0 : Fin 4); omega
    | ⟨1, _⟩ => show win0_3.index t (1 : Fin 3) * 1024 + 1 * p.val = win0_4.index t (2 : Fin 4) * 1024 + p.val; omega
    | ⟨2, _⟩ => show win0_3.index t (2 : Fin 3) * 128 + 1 * d.val = d.val; omega
  · refine congrArg _ (funext fun a => Fin.ext ?_)
    match a with
    | ⟨0, _⟩ => show win0_4.index t (0 : Fin 4) = win0_4.index t (0 : Fin 4) * 1 + 1 * (j 0).val; have h : (j 0).val < 1 := (j 0).isLt; omega
    | ⟨1, _⟩ => show win0_4.index t (1 : Fin 4) = win0_4.index t (1 : Fin 4) * 1 + 1 * (j 1).val; have h : (j 1).val < 1 := (j 1).isLt; omega
    | ⟨2, _⟩ => show win0_4.index t (2 : Fin 4) * 1024 + (j 2).val = win0_4.index t (2 : Fin 4) * 1024 + 1 * (j 2).val; omega
    | ⟨3, _⟩ => show (j 3).val = win0_4.index t (3 : Fin 4) * 128 + 1 * (j 3).val; omega

/-- An index of the result array is in point `t`'s block iff each coordinate is in the block's range on its axis. -/
theorem mem_blk (t : Fin cfg0.N) (i : S2x32x4096x128.Idx) :
    i ∈ ((cfg0.win 4).blk t).view.set ↔ ∀ a : Fin 4, win0_4.index t a * S1x1x1024x128.size a ≤ (i a).val
      ∧ (i a).val < win0_4.index t a * S1x1x1024x128.size a + S1x1x1024x128.size a := by
  show i ∈ ((View.whole main_v4).slice (win0_4.rect t)).set ↔ _
  rw [View.set_slice_whole, Rect.mem_set_unit]
  exact Iff.rfl

/-- Every index of the result array is in some point's block: entry (b, h, s, d) in the block of the point
    (b, s / 1024, h). -/
theorem cover (i : S2x32x4096x128.Idx) : ∃ t : Fin cfg0.N, (cfg0.win 4).flush t = true ∧ i ∈ ((cfg0.win 4).blk t).view.set := by
  have h0 : (i 0).val < 2 := (i 0).isLt
  have h1 : (i 1).val < 32 := (i 1).isLt
  have h2 : (i 2).val < 4096 := (i 2).isLt
  have h3 : (i 3).val < 128 := (i 3).isLt
  have hlt : ((i 0).val * 4 + (i 2).val / 1024) * 32 + (i 1).val < 256 := by omega
  obtain ⟨o0, o1, o2, o3⟩ := idx_out ⟨((i 0).val * 4 + (i 2).val / 1024) * 32 + (i 1).val, hlt⟩
  refine ⟨⟨((i 0).val * 4 + (i 2).val / 1024) * 32 + (i 1).val, hlt⟩, flush0_4 _, ?_⟩
  rw [mem_blk]
  intro a
  match a with
  | ⟨0, _⟩ =>
    show win0_4.index ⟨((i 0).val * 4 + (i 2).val / 1024) * 32 + (i 1).val, hlt⟩ (0 : Fin 4) * 1 ≤ (i 0).val
      ∧ (i 0).val < win0_4.index ⟨((i 0).val * 4 + (i 2).val / 1024) * 32 + (i 1).val, hlt⟩ (0 : Fin 4) * 1 + 1
    rw [o0]; show (((i 0).val * 4 + (i 2).val / 1024) * 32 + (i 1).val) / 128 * 1 ≤ _ ∧ _ < (((i 0).val * 4 + (i 2).val / 1024) * 32 + (i 1).val) / 128 * 1 + 1; omega
  | ⟨1, _⟩ =>
    show win0_4.index ⟨((i 0).val * 4 + (i 2).val / 1024) * 32 + (i 1).val, hlt⟩ (1 : Fin 4) * 1 ≤ (i 1).val
      ∧ (i 1).val < win0_4.index ⟨((i 0).val * 4 + (i 2).val / 1024) * 32 + (i 1).val, hlt⟩ (1 : Fin 4) * 1 + 1
    rw [o1]; show (((i 0).val * 4 + (i 2).val / 1024) * 32 + (i 1).val) % 32 * 1 ≤ _ ∧ _ < (((i 0).val * 4 + (i 2).val / 1024) * 32 + (i 1).val) % 32 * 1 + 1; omega
  | ⟨2, _⟩ =>
    show win0_4.index ⟨((i 0).val * 4 + (i 2).val / 1024) * 32 + (i 1).val, hlt⟩ (2 : Fin 4) * 1024 ≤ (i 2).val
      ∧ (i 2).val < win0_4.index ⟨((i 0).val * 4 + (i 2).val / 1024) * 32 + (i 1).val, hlt⟩ (2 : Fin 4) * 1024 + 1024
    rw [o2]; show (((i 0).val * 4 + (i 2).val / 1024) * 32 + (i 1).val) / 32 % 4 * 1024 ≤ _ ∧ _ < (((i 0).val * 4 + (i 2).val / 1024) * 32 + (i 1).val) / 32 % 4 * 1024 + 1024; omega
  | ⟨3, _⟩ =>
    show win0_4.index ⟨((i 0).val * 4 + (i 2).val / 1024) * 32 + (i 1).val, hlt⟩ (3 : Fin 4) * 128 ≤ (i 3).val
      ∧ (i 3).val < win0_4.index ⟨((i 0).val * 4 + (i 2).val / 1024) * 32 + (i 1).val, hlt⟩ (3 : Fin 4) * 128 + 128
    rw [o3]; omega

/-- The result array after the grid has run is the result function of the arrays the grid was entered with. -/
theorem final (c : Dev nD) : (dat0 V c).arrAt 4 cfg0.N
    = Cert.Spec.Gq (V c main_v0) (V c main_v1) (V c main_arg1) (V c main_arg2) :=
  (dat0 V c).arrAt_eq_of_cover 4 _ (fun t _ => flushed_eq V c t) cover

end Cert.KernelIdeal.RegionQ

end
-- ==== Proof.RegionK.lean ====
/-
  The key result array after its grid has run.

  Grid point t = (b, st, hh) reads the 1024 hidden rows st * 1024 … of batch entry b, the 128 weight rows hh * 128 … and
  the matching 1024 rows of the two rotary tables, and writes block (b, hh, st) of the result: rows st * 1024 … of head hh.
  Every block of the result is one point's, so the array ends as the whole-array function `Spec.Gk` of the
  arrays the grid was entered with.
-/
import proofs.«145036_j42640435315444_1_alg».proof.Proof.Gen.KernelIdeal.Frame
import proofs.«145036_j42640435315444_1_alg».proof.Proof.Block
import proofs.«145036_j42640435315444_1_alg».proof.Proof.Spec
import Idealize.ShloMosaic.Lib.Pipeline.Value
import Idealize.ShloMosaic.Lib.ValueIdx

set_option maxRecDepth 16384

noncomputable section

namespace Cert.KernelIdeal.RegionK

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The result window's block index at point t, axis by axis: the grid runs with the head fastest, then the row
    tile, then the batch entry. -/
theorem idx_out : ∀ t : Fin cfg1.N, win1_4.index t (0 : Fin 4) = t.val / 32
    ∧ win1_4.index t (1 : Fin 4) = t.val % 8
    ∧ win1_4.index t (2 : Fin 4) = t.val / 8 % 4
    ∧ win1_4.index t (3 : Fin 4) = 0 :=
  (by decide +kernel : ∀ t : Fin grid1.N, _)

/-- The input windows move with the result window: the hidden rows and the tables with (batch entry, row tile), the
    weight rows with the head. -/
theorem idx_in : ∀ t : Fin cfg1.N, win1_0.index t (0 : Fin 3) = win1_4.index t (0 : Fin 4)
    ∧ win1_0.index t (1 : Fin 3) = win1_4.index t (2 : Fin 4)
    ∧ win1_0.index t (2 : Fin 3) = 0
    ∧ win1_1.index t (0 : Fin 2) = win1_4.index t (1 : Fin 4)
    ∧ win1_1.index t (1 : Fin 2) = 0
    ∧ win1_2.index t (0 : Fin 3) = win1_4.index t (0 : Fin 4)
    ∧ win1_2.index t (1 : Fin 3) = win1_4.index t (2 : Fin 4)
    ∧ win1_2.index t (2 : Fin 3) = 0
    ∧ win1_3.index t (0 : Fin 3) = win1_4.index t (0 : Fin 4)
    ∧ win1_3.index t (1 : Fin 3) = win1_4.index t (2 : Fin 4)
    ∧ win1_3.index t (2 : Fin 3) = 0 :=
  (by decide +kernel : ∀ t : Fin grid1.N, _)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- One point's stored block is the matching block of the result function, given what its four input blocks hold:
    hidden rows `s p` of batch entry `b`, the weight rows of head `hh`, and rows `s p` of the two tables. -/
theorem block_eq (H : Cert.Spec.Hid.Idx → EReal) (W : Cert.Spec.Wk.Idx → EReal) (C S : Cert.Spec.Tab.Idx → EReal)
    (x0 : Vec Ideal S1x1024x4096 .bf16) (x1 : Vec Ideal S128x4096 .bf16) (x2 x3 : Vec Ideal S1x1024x128 .f32)
    (b : Fin 2) (hh : Fin 8) (s : Fin 1024 → Fin 4096)
    (h0 : ∀ (p : Fin 1024) (k : Fin 4096), x0 (ix3 (0 : Fin 1) p k) = H (ix3 b (s p) k))
    (h1 : ∀ (e : Fin 128) (k : Fin 4096), x1 (ix2 e k) = W (ix2 (Cert.Spec.rowK hh e) k))
    (h2 : ∀ (p : Fin 1024) (d : Fin 128), x2 (ix3 (0 : Fin 1) p d) = C (ix3 b (s p) d))
    (h3 : ∀ (p : Fin 1024) (d : Fin 128), x3 (ix3 (0 : Fin 1) p d) = S (ix3 b (s p) d))
    (p : Fin 1024) (d : Fin 128) :
    k1_pay1 (F := Ideal) x0 x1 x2 x3 (ix4 (0 : Fin 1) (0 : Fin 1) p d) = Cert.Spec.Gk H W C S (ix4 b hh (s p) d) := by
  rw [Cert.KernelIdeal.Block.k1_pay1_eq, Cert.KernelIdeal.Block.rope_pay_apply, Cert.Spec.Gk_ix4, h2, h3]
  unfold Cert.Spec.kAt
  have hP : (fun e => ∑ k : Fin 4096, x0 (ix3 (0 : Fin 1) p k) * x1 (ix2 e k)) = Cert.Spec.projK H W b hh (s p) := by
    funext e
    unfold Cert.Spec.projK
    exact Finset.sum_congr rfl fun k _ => by rw [h0, h1]
  rw [hP]

/-- What point `t` writes back is block `t` of the result function of the arrays as the grid finds them. -/
theorem flushed_eq (c : Dev nD) (t : Fin cfg1.N) :
    (dat1 V c).flushed 4 t = ((cfg1.win 4).blk t).view.read (Elt Ideal)
      (Cert.Spec.Gk (V c main_v0) (V c main_v2) (V c main_arg1) (V c main_arg2)) := by
  show (cfg1.win 4).cut (grid1.coords t) ((dat1 V c).after 4 t) = _
  rw [after1_4]
  unfold out1_4
  rw [View.canon_unit_zero hz4]
  simp only [View.ld_unit_zero (S := S1x1024x4096) hz3, View.ld_unit_zero (S := S128x4096) hz2, View.ld_unit_zero (S := S1x1024x128) hz3]
  obtain ⟨o0, o1, o2, o3⟩ := idx_out t
  obtain ⟨e00, e01, e02, e10, e11, e20, e21, e22, e30, e31, e32⟩ := idx_in t
  funext j
  have ht : t.val < 64 := t.isLt
  let b : Fin 2 := ⟨win1_4.index t (0 : Fin 4), by omega⟩
  let hh : Fin 8 := ⟨win1_4.index t (1 : Fin 4), by omega⟩
  let s : Fin 1024 → Fin 4096 := fun p => ⟨win1_4.index t (2 : Fin 4) * 1024 + p.val, by have := p.isLt; omega⟩
  show k1_pay1 (F := Ideal) (iblk1 V c 0 t) (iblk1 V c 1 t) (iblk1 V c 2 t) (iblk1 V c 3 t) j
      = Cert.Spec.Gk (V c main_v0) (V c main_v2) (V c main_arg1) (V c main_arg2) (((cfg1.win 4).blk t).view.emb j)
  have hj : (j : S1x1x1024x128.Idx) = ix4 (0 : Fin 1) (0 : Fin 1) (j 2) (j 3) := funext fun a => by
    match a with
    | ⟨0, _⟩ => exact Fin.ext (by show (j 0).val = 0; have h : (j 0).val < 1 := (j 0).isLt; omega)
    | ⟨1, _⟩ => exact Fin.ext (by show (j 1).val = 0; have h : (j 1).val < 1 := (j 1).isLt; omega)
    | ⟨2, _⟩ => rfl
    | ⟨3, _⟩ => rfl
  refine (congrArg (k1_pay1 (F := Ideal) (iblk1 V c 0 t) (iblk1 V c 1 t) (iblk1 V c 2 t) (iblk1 V c 3 t)) hj).trans ?_
  refine (block_eq (V c main_v0) (V c main_v2) (V c main_arg1) (V c main_arg2)
    (iblk1 V c 0 t) (iblk1 V c 1 t) (iblk1 V c 2 t) (iblk1 V c 3 t) b hh s ?_ ?_ ?_ ?_ (j 2) (j 3)).trans ?_
  · intro p k
    show V c main_v0 (((cfg1.win 0).blk t).view.emb (ix3 (0 : Fin 1) p k)) = V c main_v0 (ix3 b (s p) k)
    refine congrArg _ (funext fun a => Fin.ext ?_)
    match a with
    | ⟨0, _⟩ => show win1_0.index t (0 : Fin 3) * 1 + 1 * 0 = win1_4.index t (0 : Fin 4); omega
    | ⟨1, _⟩ => show win1_0.index t (1 : Fin 3) * 1024 + 1 * p.val = win1_4.index t (2 : Fin 4) * 1024 + p.val; omega
    | ⟨2, _⟩ => show win1_0.index t (2 : Fin 3) * 4096 + 1 * k.val = k.val; omega
  · intro e k
    show V c main_v2 (((cfg1.win 1).blk t).view.emb (ix2 e k)) = V c main_v2 (ix2 (Cert.Spec.rowK hh e) k)
    refine congrArg _ (funext fun a => Fin.ext ?_)
    match a with
    | ⟨0, _⟩ => show win1_1.index t (0 : Fin 2) * 128 + 1 * e.val = win1_4.index t (1 : Fin 4) * 128 + e.val; omega
    | ⟨1, _⟩ => show win1_1.index t (1 : Fin 2) * 4096 + 1 * k.val = k.val; omega
  · intro p d
    show V c main_arg1 (((cfg1.win 2).blk t).view.emb (ix3 (0 : Fin 1) p d)) = V c main_arg1 (ix3 b (s p) d)
    refine congrArg _ (funext fun a => Fin.ext ?_)
    match a with
    | ⟨0, _⟩ => show win1_2.index t (0 : Fin 3) * 1 + 1 * 0 = win1_4.index t (0 : Fin 4); omega
    | ⟨1, _⟩ => show win1_2.index t (1 : Fin 3) * 1024 + 1 * p.val = win1_4.index t (2 : Fin 4) * 1024 + p.val; omega
    | ⟨2, _⟩ => show win1_2.index t (2 : Fin 3) * 128 + 1 * d.val = d.val; omega
  · intro p d
    show V c main_arg2 (((cfg1.win 3).blk t).view.emb (ix3 (0 : Fin 1) p d)) = V c main_arg2 (ix3 b (s p) d)
    refine congrArg _ (funext fun a => Fin.ext ?_)
    match a with
    | ⟨0, _⟩ => show win1_3.index t (0 : Fin 3) * 1 + 1 * 0 = win1_4.index t (0 : Fin 4); omega
    | ⟨1, _⟩ => show win1_3.index t (1 : Fin 3) * 1024 + 1 * p.val = win1_4.index t (2 : Fin 4) * 1024 + p.val; omega
    | ⟨2, _⟩ => show win1_3.index t (2 : Fin 3) * 128 + 1 * d.val = d.val; omega
  · refine congrArg _ (funext fun a => Fin.ext ?_)
    match a with
    | ⟨0, _⟩ => show win1_4.index t (0 : Fin 4) = win1_4.index t (0 : Fin 4) * 1 + 1 * (j 0).val; have h : (j 0).val < 1 := (j 0).isLt; omega
    | ⟨1, _⟩ => show win1_4.index t (1 : Fin 4) = win1_4.index t (1 : Fin 4) * 1 + 1 * (j 1).val; have h : (j 1).val < 1 := (j 1).isLt; omega
    | ⟨2, _⟩ => show win1_4.index t (2 : Fin 4) * 1024 + (j 2).val = win1_4.index t (2 : Fin 4) * 1024 + 1 * (j 2).val; omega
    | ⟨3, _⟩ => show (j 3).val = win1_4.index t (3 : Fin 4) * 128 + 1 * (j 3).val; omega

/-- An index of the result array is in point `t`'s block iff each coordinate is in the block's range on its axis. -/
theorem mem_blk (t : Fin cfg1.N) (i : S2x8x4096x128.Idx) :
    i ∈ ((cfg1.win 4).blk t).view.set ↔ ∀ a : Fin 4, win1_4.index t a * S1x1x1024x128.size a ≤ (i a).val
      ∧ (i a).val < win1_4.index t a * S1x1x1024x128.size a + S1x1x1024x128.size a := by
  show i ∈ ((View.whole main_v5).slice (win1_4.rect t)).set ↔ _
  rw [View.set_slice_whole, Rect.mem_set_unit]
  exact Iff.rfl

/-- Every index of the result array is in some point's block: entry (b, h, s, d) in the block of the point
    (b, s / 1024, h). -/
theorem cover (i : S2x8x4096x128.Idx) : ∃ t : Fin cfg1.N, (cfg1.win 4).flush t = true ∧ i ∈ ((cfg1.win 4).blk t).view.set := by
  have h0 : (i 0).val < 2 := (i 0).isLt
  have h1 : (i 1).val < 8 := (i 1).isLt
  have h2 : (i 2).val < 4096 := (i 2).isLt
  have h3 : (i 3).val < 128 := (i 3).isLt
  have hlt : ((i 0).val * 4 + (i 2).val / 1024) * 8 + (i 1).val < 64 := by omega
  obtain ⟨o0, o1, o2, o3⟩ := idx_out ⟨((i 0).val * 4 + (i 2).val / 1024) * 8 + (i 1).val, hlt⟩
  refine ⟨⟨((i 0).val * 4 + (i 2).val / 1024) * 8 + (i 1).val, hlt⟩, flush1_4 _, ?_⟩
  rw [mem_blk]
  intro a
  match a with
  | ⟨0, _⟩ =>
    show win1_4.index ⟨((i 0).val * 4 + (i 2).val / 1024) * 8 + (i 1).val, hlt⟩ (0 : Fin 4) * 1 ≤ (i 0).val
      ∧ (i 0).val < win1_4.index ⟨((i 0).val * 4 + (i 2).val / 1024) * 8 + (i 1).val, hlt⟩ (0 : Fin 4) * 1 + 1
    rw [o0]; show (((i 0).val * 4 + (i 2).val / 1024) * 8 + (i 1).val) / 32 * 1 ≤ _ ∧ _ < (((i 0).val * 4 + (i 2).val / 1024) * 8 + (i 1).val) / 32 * 1 + 1; omega
  | ⟨1, _⟩ =>
    show win1_4.index ⟨((i 0).val * 4 + (i 2).val / 1024) * 8 + (i 1).val, hlt⟩ (1 : Fin 4) * 1 ≤ (i 1).val
      ∧ (i 1).val < win1_4.index ⟨((i 0).val * 4 + (i 2).val / 1024) * 8 + (i 1).val, hlt⟩ (1 : Fin 4) * 1 + 1
    rw [o1]; show (((i 0).val * 4 + (i 2).val / 1024) * 8 + (i 1).val) % 8 * 1 ≤ _ ∧ _ < (((i 0).val * 4 + (i 2).val / 1024) * 8 + (i 1).val) % 8 * 1 + 1; omega
  | ⟨2, _⟩ =>
    show win1_4.index ⟨((i 0).val * 4 + (i 2).val / 1024) * 8 + (i 1).val, hlt⟩ (2 : Fin 4) * 1024 ≤ (i 2).val
      ∧ (i 2).val < win1_4.index ⟨((i 0).val * 4 + (i 2).val / 1024) * 8 + (i 1).val, hlt⟩ (2 : Fin 4) * 1024 + 1024
    rw [o2]; show (((i 0).val * 4 + (i 2).val / 1024) * 8 + (i 1).val) / 8 % 4 * 1024 ≤ _ ∧ _ < (((i 0).val * 4 + (i 2).val / 1024) * 8 + (i 1).val) / 8 % 4 * 1024 + 1024; omega
  | ⟨3, _⟩ =>
    show win1_4.index ⟨((i 0).val * 4 + (i 2).val / 1024) * 8 + (i 1).val, hlt⟩ (3 : Fin 4) * 128 ≤ (i 3).val
      ∧ (i 3).val < win1_4.index ⟨((i 0).val * 4 + (i 2).val / 1024) * 8 + (i 1).val, hlt⟩ (3 : Fin 4) * 128 + 128
    rw [o3]; omega

/-- The result array after the grid has run is the result function of the arrays the grid was entered with. -/
theorem final (c : Dev nD) : (dat1 V c).arrAt 4 cfg1.N
    = Cert.Spec.Gk (V c main_v0) (V c main_v2) (V c main_arg1) (V c main_arg2) :=
  (dat1 V c).arrAt_eq_of_cover 4 _ (fun t _ => flushed_eq V c t) cover

end Cert.KernelIdeal.RegionK

end
-- ==== Proof.RegionV.lean ====
/-
  The value result array after its grid has run.

  Grid point t = (b, st, hh) reads the 1024 hidden rows st * 1024 … of batch entry b and the 128 weight rows hh * 128 …,
  and writes block (b, hh, st) of the result: rows st * 1024 … of head hh, each entry the product of a hidden row with a
  weight row. Every block of the result is one point's, so the array ends as the whole-array function `Spec.Gv` of the
  arrays the grid was entered with.
-/
import proofs.«145036_j42640435315444_1_alg».proof.Proof.Gen.KernelIdeal.Frame
import proofs.«145036_j42640435315444_1_alg».proof.Proof.Block
import proofs.«145036_j42640435315444_1_alg».proof.Proof.Spec
import Idealize.ShloMosaic.Lib.Pipeline.Value
import Idealize.ShloMosaic.Lib.ValueIdx

set_option maxRecDepth 16384

noncomputable section

namespace Cert.KernelIdeal.RegionV

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The result window's block index at point t, axis by axis: the grid runs with the head fastest, then the row
    tile, then the batch entry. -/
theorem idx_out : ∀ t : Fin cfg2.N, win2_2.index t (0 : Fin 4) = t.val / 32
    ∧ win2_2.index t (1 : Fin 4) = t.val % 8
    ∧ win2_2.index t (2 : Fin 4) = t.val / 8 % 4
    ∧ win2_2.index t (3 : Fin 4) = 0 :=
  (by decide +kernel : ∀ t : Fin grid2.N, _)

/-- The input windows move with the result window: the hidden rows with (batch entry, row tile), the weight rows
    with the head. -/
theorem idx_in : ∀ t : Fin cfg2.N, win2_0.index t (0 : Fin 3) = win2_2.index t (0 : Fin 4)
    ∧ win2_0.index t (1 : Fin 3) = win2_2.index t (2 : Fin 4)
    ∧ win2_0.index t (2 : Fin 3) = 0
    ∧ win2_1.index t (0 : Fin 2) = win2_2.index t (1 : Fin 4)
    ∧ win2_1.index t (1 : Fin 2) = 0 :=
  (by decide +kernel : ∀ t : Fin grid2.N, _)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- One point's stored block is the matching block of the result function, given what its two input blocks hold:
    hidden rows `s p` of batch entry `b` and the weight rows of head `hh`. -/
theorem block_eq (H : Cert.Spec.Hid.Idx → EReal) (W : Cert.Spec.Wk.Idx → EReal)
    (x0 : Vec Ideal S1x1024x4096 .bf16) (x1 : Vec Ideal S128x4096 .bf16)
    (b : Fin 2) (hh : Fin 8) (s : Fin 1024 → Fin 4096)
    (h0 : ∀ (p : Fin 1024) (k : Fin 4096), x0 (ix3 (0 : Fin 1) p k) = H (ix3 b (s p) k))
    (h1 : ∀ (e : Fin 128) (k : Fin 4096), x1 (ix2 e k) = W (ix2 (Cert.Spec.rowK hh e) k))
    (p : Fin 1024) (d : Fin 128) :
    k2_pay1 (F := Ideal) x0 x1 (ix4 (0 : Fin 1) (0 : Fin 1) p d) = Cert.Spec.Gv H W (ix4 b hh (s p) d) := by
  rw [Cert.KernelIdeal.Block.plain_pay_apply, Cert.Spec.Gv_ix4]
  unfold Cert.Spec.projK
  exact Finset.sum_congr rfl fun k _ => by rw [h0, h1]

/-- What point `t` writes back is block `t` of the result function of the arrays as the grid finds them. -/
theorem flushed_eq (c : Dev nD) (t : Fin cfg2.N) :
    (dat2 V c).flushed 2 t = ((cfg2.win 2).blk t).view.read (Elt Ideal)
      (Cert.Spec.Gv (V c main_v0) (V c main_v3)) := by
  show (cfg2.win 2).cut (grid2.coords t) ((dat2 V c).after 2 t) = _
  rw [after2_2]
  unfold out2_2
  rw [View.canon_unit_zero hz4]
  simp only [View.ld_unit_zero (S := S1x1024x4096) hz3, View.ld_unit_zero (S := S128x4096) hz2]
  obtain ⟨o0, o1, o2, o3⟩ := idx_out t
  obtain ⟨e00, e01, e02, e10, e11⟩ := idx_in t
  funext j
  have ht : t.val < 64 := t.isLt
  let b : Fin 2 := ⟨win2_2.index t (0 : Fin 4), by omega⟩
  let hh : Fin 8 := ⟨win2_2.index t (1 : Fin 4), by omega⟩
  let s : Fin 1024 → Fin 4096 := fun p => ⟨win2_2.index t (2 : Fin 4) * 1024 + p.val, by have := p.isLt; omega⟩
  show k2_pay1 (F := Ideal) (iblk2 V c 0 t) (iblk2 V c 1 t) j
      = Cert.Spec.Gv (V c main_v0) (V c main_v3) (((cfg2.win 2).blk t).view.emb j)
  have hj : (j : S1x1x1024x128.Idx) = ix4 (0 : Fin 1) (0 : Fin 1) (j 2) (j 3) := funext fun a => by
    match a with
    | ⟨0, _⟩ => exact Fin.ext (by show (j 0).val = 0; have h : (j 0).val < 1 := (j 0).isLt; omega)
    | ⟨1, _⟩ => exact Fin.ext (by show (j 1).val = 0; have h : (j 1).val < 1 := (j 1).isLt; omega)
    | ⟨2, _⟩ => rfl
    | ⟨3, _⟩ => rfl
  refine (congrArg (k2_pay1 (F := Ideal) (iblk2 V c 0 t) (iblk2 V c 1 t)) hj).trans ?_
  refine (block_eq (V c main_v0) (V c main_v3) (iblk2 V c 0 t) (iblk2 V c 1 t) b hh s ?_ ?_ (j 2) (j 3)).trans ?_
  · intro p k
    show V c main_v0 (((cfg2.win 0).blk t).view.emb (ix3 (0 : Fin 1) p k)) = V c main_v0 (ix3 b (s p) k)
    refine congrArg _ (funext fun a => Fin.ext ?_)
    match a with
    | ⟨0, _⟩ => show win2_0.index t (0 : Fin 3) * 1 + 1 * 0 = win2_2.index t (0 : Fin 4); omega
    | ⟨1, _⟩ => show win2_0.index t (1 : Fin 3) * 1024 + 1 * p.val = win2_2.index t (2 : Fin 4) * 1024 + p.val; omega
    | ⟨2, _⟩ => show win2_0.index t (2 : Fin 3) * 4096 + 1 * k.val = k.val; omega
  · intro e k
    show V c main_v3 (((cfg2.win 1).blk t).view.emb (ix2 e k)) = V c main_v3 (ix2 (Cert.Spec.rowK hh e) k)
    refine congrArg _ (funext fun a => Fin.ext ?_)
    match a with
    | ⟨0, _⟩ => show win2_1.index t (0 : Fin 2) * 128 + 1 * e.val = win2_2.index t (1 : Fin 4) * 128 + e.val; omega
    | ⟨1, _⟩ => show win2_1.index t (1 : Fin 2) * 4096 + 1 * k.val = k.val; omega
  · refine congrArg _ (funext fun a => Fin.ext ?_)
    match a with
    | ⟨0, _⟩ => show win2_2.index t (0 : Fin 4) = win2_2.index t (0 : Fin 4) * 1 + 1 * (j 0).val; have h : (j 0).val < 1 := (j 0).isLt; omega
    | ⟨1, _⟩ => show win2_2.index t (1 : Fin 4) = win2_2.index t (1 : Fin 4) * 1 + 1 * (j 1).val; have h : (j 1).val < 1 := (j 1).isLt; omega
    | ⟨2, _⟩ => show win2_2.index t (2 : Fin 4) * 1024 + (j 2).val = win2_2.index t (2 : Fin 4) * 1024 + 1 * (j 2).val; omega
    | ⟨3, _⟩ => show (j 3).val = win2_2.index t (3 : Fin 4) * 128 + 1 * (j 3).val; omega

/-- An index of the result array is in point `t`'s block iff each coordinate is in the block's range on its axis. -/
theorem mem_blk (t : Fin cfg2.N) (i : S2x8x4096x128.Idx) :
    i ∈ ((cfg2.win 2).blk t).view.set ↔ ∀ a : Fin 4, win2_2.index t a * S1x1x1024x128.size a ≤ (i a).val
      ∧ (i a).val < win2_2.index t a * S1x1x1024x128.size a + S1x1x1024x128.size a := by
  show i ∈ ((View.whole main_v6).slice (win2_2.rect t)).set ↔ _
  rw [View.set_slice_whole, Rect.mem_set_unit]
  exact Iff.rfl

/-- Every index of the result array is in some point's block: entry (b, h, s, d) in the block of the point
    (b, s / 1024, h). -/
theorem cover (i : S2x8x4096x128.Idx) : ∃ t : Fin cfg2.N, (cfg2.win 2).flush t = true ∧ i ∈ ((cfg2.win 2).blk t).view.set := by
  have h0 : (i 0).val < 2 := (i 0).isLt
  have h1 : (i 1).val < 8 := (i 1).isLt
  have h2 : (i 2).val < 4096 := (i 2).isLt
  have h3 : (i 3).val < 128 := (i 3).isLt
  have hlt : ((i 0).val * 4 + (i 2).val / 1024) * 8 + (i 1).val < 64 := by omega
  obtain ⟨o0, o1, o2, o3⟩ := idx_out ⟨((i 0).val * 4 + (i 2).val / 1024) * 8 + (i 1).val, hlt⟩
  refine ⟨⟨((i 0).val * 4 + (i 2).val / 1024) * 8 + (i 1).val, hlt⟩, flush2_2 _, ?_⟩
  rw [mem_blk]
  intro a
  match a with
  | ⟨0, _⟩ =>
    show win2_2.index ⟨((i 0).val * 4 + (i 2).val / 1024) * 8 + (i 1).val, hlt⟩ (0 : Fin 4) * 1 ≤ (i 0).val
      ∧ (i 0).val < win2_2.index ⟨((i 0).val * 4 + (i 2).val / 1024) * 8 + (i 1).val, hlt⟩ (0 : Fin 4) * 1 + 1
    rw [o0]; show (((i 0).val * 4 + (i 2).val / 1024) * 8 + (i 1).val) / 32 * 1 ≤ _ ∧ _ < (((i 0).val * 4 + (i 2).val / 1024) * 8 + (i 1).val) / 32 * 1 + 1; omega
  | ⟨1, _⟩ =>
    show win2_2.index ⟨((i 0).val * 4 + (i 2).val / 1024) * 8 + (i 1).val, hlt⟩ (1 : Fin 4) * 1 ≤ (i 1).val
      ∧ (i 1).val < win2_2.index ⟨((i 0).val * 4 + (i 2).val / 1024) * 8 + (i 1).val, hlt⟩ (1 : Fin 4) * 1 + 1
    rw [o1]; show (((i 0).val * 4 + (i 2).val / 1024) * 8 + (i 1).val) % 8 * 1 ≤ _ ∧ _ < (((i 0).val * 4 + (i 2).val / 1024) * 8 + (i 1).val) % 8 * 1 + 1; omega
  | ⟨2, _⟩ =>
    show win2_2.index ⟨((i 0).val * 4 + (i 2).val / 1024) * 8 + (i 1).val, hlt⟩ (2 : Fin 4) * 1024 ≤ (i 2).val
      ∧ (i 2).val < win2_2.index ⟨((i 0).val * 4 + (i 2).val / 1024) * 8 + (i 1).val, hlt⟩ (2 : Fin 4) * 1024 + 1024
    rw [o2]; show (((i 0).val * 4 + (i 2).val / 1024) * 8 + (i 1).val) / 8 % 4 * 1024 ≤ _ ∧ _ < (((i 0).val * 4 + (i 2).val / 1024) * 8 + (i 1).val) / 8 % 4 * 1024 + 1024; omega
  | ⟨3, _⟩ =>
    show win2_2.index ⟨((i 0).val * 4 + (i 2).val / 1024) * 8 + (i 1).val, hlt⟩ (3 : Fin 4) * 128 ≤ (i 3).val
      ∧ (i 3).val < win2_2.index ⟨((i 0).val * 4 + (i 2).val / 1024) * 8 + (i 1).val, hlt⟩ (3 : Fin 4) * 128 + 128
    rw [o3]; omega

/-- The result array after the grid has run is the result function of the arrays the grid was entered with. -/
theorem final (c : Dev nD) : (dat2 V c).arrAt 2 cfg2.N = Cert.Spec.Gv (V c main_v0) (V c main_v3) :=
  (dat2 V c).arrAt_eq_of_cover 2 _ (fun t _ => flushed_eq V c t) cover

end Cert.KernelIdeal.RegionV

end
-- ==== Proof.KernelValue.lean ====
/-
  The kernel program's three results as functions of its arguments, at the ideal values.

  Before the first grid the program only changes the float format of the hidden states and of the three weight
  matrices, which at the ideal values changes nothing. Each grid then fills one result array with the result function
  of the arrays it reads (RegionQ, RegionK, RegionV), no grid writes an array a later grid reads, and a result once
  written is not written again: so at the return the three results are `Gq`, `Gk` and `Gv` of the arguments.
-/
import proofs.«145036_j42640435315444_1_alg».proof.Proof.Gen.KernelIdeal.Frame
import proofs.«145036_j42640435315444_1_alg».proof.Proof.RunNamed
import proofs.«145036_j42640435315444_1_alg».proof.Proof.RegionQ
import proofs.«145036_j42640435315444_1_alg».proof.Proof.RegionK
import proofs.«145036_j42640435315444_1_alg».proof.Proof.RegionV
import proofs.«145036_j42640435315444_1_alg».proof.Proof.Spec
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## The arrays the first grid is entered with -/

/-- The converted hidden states are the hidden states. -/
theorem V1_v0 (c : Dev nD) : (V1 m ρ c main_v0 : S2x4096x4096.Idx → EReal) = m ((c : Thread nD τ).loc main_arg0) := by
  show StableHlo.after hostOps0 (W0 m ρ c) (Proc.devRef .tc main_v0) = _
  after_results <;> rfl

/-- The converted query weights are the query weights. -/
theorem V1_v1 (c : Dev nD) : (V1 m ρ c main_v1 : S4096x4096.Idx → EReal) = m ((c : Thread nD τ).loc main_arg3) := by
  show StableHlo.after hostOps0 (W0 m ρ c) (Proc.devRef .tc main_v1) = _
  after_results <;> rfl

/-- The converted key weights are the key weights. -/
theorem V1_v2 (c : Dev nD) : (V1 m ρ c main_v2 : S1024x4096.Idx → EReal) = m ((c : Thread nD τ).loc main_arg4) := by
  show StableHlo.after hostOps0 (W0 m ρ c) (Proc.devRef .tc main_v2) = _
  after_results <;> rfl

/-- The converted value weights are the value weights. -/
theorem V1_v3 (c : Dev nD) : (V1 m ρ c main_v3 : S1024x4096.Idx → EReal) = m ((c : Thread nD τ).loc main_arg5) := by
  show StableHlo.after hostOps0 (W0 m ρ c) (Proc.devRef .tc main_v3) = _
  after_results <;> rfl

/-- The two rotary tables are arguments no host operation writes. -/
theorem V1_arg1 (c : Dev nD) : (V1 m ρ c main_arg1 : S2x4096x128.Idx → EReal) = m ((c : Thread nD τ).loc main_arg1) := by
  show StableHlo.after hostOps0 (W0 m ρ c) (Proc.devRef .tc main_arg1) = _
  after_results <;> rfl

theorem V1_arg2 (c : Dev nD) : (V1 m ρ c main_arg2 : S2x4096x128.Idx → EReal) = m ((c : Thread nD τ).loc main_arg2) := by
  show StableHlo.after hostOps0 (W0 m ρ c) (Proc.devRef .tc main_arg2) = _
  after_results <;> rfl

/-! ## What a later grid is entered with: the first grid's inputs are left as they were, and it does not touch the other
    weight matrices -/

theorem V2_v0 (c : Dev nD) : V2 m ρ c main_v0 = V1 m ρ c main_v0 :=
  (W2_arr m ρ c 0).trans (((dat0 (V1 m ρ) c).arrAt_in 0 rfl _).trans (A_eq0 (V1 m ρ) c 0))
theorem V2_arg1 (c : Dev nD) : V2 m ρ c main_arg1 = V1 m ρ c main_arg1 :=
  (W2_arr m ρ c 2).trans (((dat0 (V1 m ρ) c).arrAt_in 2 rfl _).trans (A_eq0 (V1 m ρ) c 2))
theorem V2_arg2 (c : Dev nD) : V2 m ρ c main_arg2 = V1 m ρ c main_arg2 :=
  (W2_arr m ρ c 3).trans (((dat0 (V1 m ρ) c).arrAt_in 3 rfl _).trans (A_eq0 (V1 m ρ) c 3))
theorem V2_v2 (c : Dev nD) : V2 m ρ c main_v2 = V1 m ρ c main_v2 := W2_of_ne m ρ c main_v2 (by decide)
theorem V2_v3 (c : Dev nD) : V2 m ρ c main_v3 = V1 m ρ c main_v3 := W2_of_ne m ρ c main_v3 (by decide)
theorem V3_v0 (c : Dev nD) : V3 m ρ c main_v0 = V2 m ρ c main_v0 :=
  (W3_arr m ρ c 0).trans (((dat1 (V2 m ρ) c).arrAt_in 0 rfl _).trans (A_eq1 (V2 m ρ) c 0))
theorem V3_v3 (c : Dev nD) : V3 m ρ c main_v3 = V2 m ρ c main_v3 := W3_of_ne m ρ c main_v3 (by decide)

/-! ## The three results at the return -/

/-- The query result: written by the first grid, untouched by the other two. -/
theorem W4_q (c : Dev nD) : (W4 m ρ c (Proc.devRef .tc main_v4) : S2x32x4096x128.Idx → EReal)
    = Cert.Spec.Gq (m ((c : Thread nD τ).loc main_arg0)) (m ((c : Thread nD τ).loc main_arg3))
        (m ((c : Thread nD τ).loc main_arg1)) (m ((c : Thread nD τ).loc main_arg2)) :=
  calc W4 m ρ c (Proc.devRef .tc main_v4)
    _ = W3 m ρ c (Proc.devRef .tc main_v4) := W4_of_ne m ρ c main_v4 (by decide)
    _ = W2 m ρ c (Proc.devRef .tc main_v4) := W3_of_ne m ρ c main_v4 (by decide)
    _ = (dat0 (V1 m ρ) c).arrAt 4 cfg0.N := W2_arr m ρ c 4
    _ = Cert.Spec.Gq (V1 m ρ c main_v0) (V1 m ρ c main_v1) (V1 m ρ c main_arg1) (V1 m ρ c main_arg2) :=
          Cert.KernelIdeal.RegionQ.final (V1 m ρ) c
    _ = _ := by rw [V1_v0 m ρ c, V1_v1 m ρ c, V1_arg1 m ρ c, V1_arg2 m ρ c]

/-- The key result: written by the second grid, untouched by the third. -/
theorem W4_k (c : Dev nD) : (W4 m ρ c (Proc.devRef .tc main_v5) : S2x8x4096x128.Idx → EReal)
    = Cert.Spec.Gk (m ((c : Thread nD τ).loc main_arg0)) (m ((c : Thread nD τ).loc main_arg4))
        (m ((c : Thread nD τ).loc main_arg1)) (m ((c : Thread nD τ).loc main_arg2)) :=
  calc W4 m ρ c (Proc.devRef .tc main_v5)
    _ = W3 m ρ c (Proc.devRef .tc main_v5) := W4_of_ne m ρ c main_v5 (by decide)
    _ = (dat1 (V2 m ρ) c).arrAt 4 cfg1.N := W3_arr m ρ c 4
    _ = Cert.Spec.Gk (V2 m ρ c main_v0) (V2 m ρ c main_v2) (V2 m ρ c main_arg1) (V2 m ρ c main_arg2) :=
          Cert.KernelIdeal.RegionK.final (V2 m ρ) c
    _ = _ := by rw [V2_v0 m ρ c, V2_v2 m ρ c, V2_arg1 m ρ c, V2_arg2 m ρ c, V1_v0 m ρ c, V1_v2 m ρ c, V1_arg1 m ρ c, V1_arg2 m ρ c]

/-- The value result: written by the third grid. -/
theorem W4_v (c : Dev nD) : (W4 m ρ c (Proc.devRef .tc main_v6) : S2x8x4096x128.Idx → EReal)
    = Cert.Spec.Gv (m ((c : Thread nD τ).loc main_arg0)) (m ((c : Thread nD τ).loc main_arg5)) :=
  calc W4 m ρ c (Proc.devRef .tc main_v6)
    _ = (dat2 (V3 m ρ) c).arrAt 2 cfg2.N := W4_arr m ρ c 2
    _ = Cert.Spec.Gv (V3 m ρ c main_v0) (V3 m ρ c main_v3) := Cert.KernelIdeal.RegionV.final (V3 m ρ) c
    _ = _ := by rw [V3_v0 m ρ c, V3_v3 m ρ c, V2_v0 m ρ c, V2_v3 m ρ c, V1_v0 m ρ c, V1_v3 m ρ c]

/-- The kernel program's run with its results read: every weakly fair execution terminates with the three results at
    the result functions of the arguments, and the arguments as launched. -/
theorem run : θ_run defs (onTc (τ := τ) (main (F := Ideal))) ⟨m, fun _ => 0, ρ⟩ (fun r => ∀ c : Dev nD,
      r.2.mem ((c.tc : Thread nD τ).loc main_v4) = Cert.Spec.Gq (m ((c.tc : Thread nD τ).loc main_arg0)) (m ((c.tc : Thread nD τ).loc main_arg3)) (m ((c.tc : Thread nD τ).loc main_arg1)) (m ((c.tc : Thread nD τ).loc main_arg2))
      ∧ r.2.mem ((c.tc : Thread nD τ).loc main_v5) = Cert.Spec.Gk (m ((c.tc : Thread nD τ).loc main_arg0)) (m ((c.tc : Thread nD τ).loc main_arg4)) (m ((c.tc : Thread nD τ).loc main_arg1)) (m ((c.tc : Thread nD τ).loc main_arg2))
      ∧ r.2.mem ((c.tc : Thread nD τ).loc main_v6) = Cert.Spec.Gv (m ((c.tc : Thread nD τ).loc main_arg0)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W4_q m ρ c), (h c).2.1.trans (W4_k m ρ c), (h c).2.2.1.trans (W4_v m ρ c), (h c).2.2.2⟩)
    (Cert.KernelIdeal.Named.run_named m ρ)

end Cert.KernelIdeal.KValue

end
-- ==== Proof.RefValue.lean ====
/-
  The reference at the ideal values is the specification.

  Its three results, read one operation at a time: the query and key results are the rotary embedding of the
  projections, the value result the bare projection (Spec.lean's `Gq`, `Gk`, `Gv`).
-/
import proofs.«145036_j42640435315444_1_alg».proof.Proof.Gen.ReferenceIdeal.Read
import proofs.«145036_j42640435315444_1_alg».proof.Proof.Spec

noncomputable section

namespace Cert.ReferenceIdeal.RefValue

open Cert.ReferenceIdeal Cert.ReferenceIdeal.Read Idealize.ShloMosaic Idealize.ShloMosaic.ValueIdx

/-! ## The projections at coordinates

The product of the hidden states with a weight matrix is laid out [batch, position, row]; the reshape splits the row
into head * 128 + lane and the transpose brings the head in front of the position. At coordinates (b, h, s, d) the
flat position ((b * 4096 + s) * heads + h) * 128 + d has batch quotient b, position s and row h * 128 + d. -/

/-- The key projection, reshaped and transposed, at coordinates. -/
theorem projK_at (x0 : (⟨S2x4096x4096, .f32⟩ : BufTy).Contents (Elt Ideal)) (x4 : (⟨S1024x4096, .f32⟩ : BufTy).Contents (Elt Ideal))
    (b : Fin 2) (h : Fin 8) (s : Fin 4096) (d : Fin 128) :
    val_main_v5 (F := Ideal) x0 x4 (ix4 b h s d) = Cert.Spec.projK x0 x4 b h s d := by
  rw [val_main_v5_apply, val_main_v4_apply, val_main_v3_apply]
  unfold Cert.Spec.projK
  refine Finset.sum_congr rfl fun k _ => ?_
  have hb := b.isLt
  have hh := h.isLt
  have hs := s.isLt
  have hd := d.isLt
  have el : lidx_main_v3 (idx_main_v4 (idx_main_v5 (ix4 b h s d))) k = ix3 b s k := funext fun a => Fin.ext (by
    match a with
    | ⟨0, _⟩ => show (((b.val * 4096 + s.val) * 8 + h.val) * 128 + d.val) / 4194304 = b.val; omega
    | ⟨1, _⟩ => show (((b.val * 4096 + s.val) * 8 + h.val) * 128 + d.val) / 1024 % 4096 = s.val; omega
    | ⟨2, _⟩ => rfl)
  have er : ridx_main_v3 (idx_main_v4 (idx_main_v5 (ix4 b h s d))) k = ix2 (Cert.Spec.rowK h d) k := funext fun a => Fin.ext (by
    match a with
    | ⟨0, _⟩ => show (((b.val * 4096 + s.val) * 8 + h.val) * 128 + d.val) % 1024 = h.val * 128 + d.val; omega
    | ⟨1, _⟩ => rfl)
  rw [el, er]

/-- The value projection is the same operations on the value weights. -/
theorem projV_at (x0 : (⟨S2x4096x4096, .f32⟩ : BufTy).Contents (Elt Ideal)) (x5 : (⟨S1024x4096, .f32⟩ : BufTy).Contents (Elt Ideal))
    (b : Fin 2) (h : Fin 8) (s : Fin 4096) (d : Fin 128) :
    val_main_v8 (F := Ideal) x0 x5 (ix4 b h s d) = Cert.Spec.projK x0 x5 b h s d :=
  projK_at x0 x5 b h s d

/-- The query projection, reshaped and transposed, at coordinates. -/
theorem projQ_at (x0 : (⟨S2x4096x4096, .f32⟩ : BufTy).Contents (Elt Ideal)) (x3 : (⟨S4096x4096, .f32⟩ : BufTy).Contents (Elt Ideal))
    (b : Fin 2) (h : Fin 32) (s : Fin 4096) (d : Fin 128) :
    val_main_v2 (F := Ideal) x0 x3 (ix4 b h s d) = Cert.Spec.projQ x0 x3 b h s d := by
  rw [val_main_v2_apply, val_main_v1_apply, val_main_v0_apply]
  unfold Cert.Spec.projQ
  refine Finset.sum_congr rfl fun k _ => ?_
  have hb := b.isLt
  have hh := h.isLt
  have hs := s.isLt
  have hd := d.isLt
  have el : lidx_main_v0 (idx_main_v1 (idx_main_v2 (ix4 b h s d))) k = ix3 b s k := funext fun a => Fin.ext (by
    match a with
    | ⟨0, _⟩ => show (((b.val * 4096 + s.val) * 32 + h.val) * 128 + d.val) / 16777216 = b.val; omega
    | ⟨1, _⟩ => show (((b.val * 4096 + s.val) * 32 + h.val) * 128 + d.val) / 4096 % 4096 = s.val; omega
    | ⟨2, _⟩ => rfl)
  have er : ridx_main_v0 (idx_main_v1 (idx_main_v2 (ix4 b h s d))) k = ix2 (Cert.Spec.rowQ h d) k := funext fun a => Fin.ext (by
    match a with
    | ⟨0, _⟩ => show (((b.val * 4096 + s.val) * 32 + h.val) * 128 + d.val) % 4096 = h.val * 128 + d.val; omega
    | ⟨1, _⟩ => rfl)
  rw [el, er]

/-! ## The rotary tables at coordinates

A table [batch, position, lane] is broadcast over the heads: at (b, h, s, d) it reads its entry (b, s, d). -/

/-- The cosine table broadcast over 32 heads. -/
theorem cosQ_at (x1 : (⟨S2x4096x128, .f32⟩ : BufTy).Contents (Elt Ideal)) (b : Fin 2) (h : Fin 32) (s : Fin 4096) (d : Fin 128) :
    val_main_v11 (F := Ideal) x1 (ix4 b h s d) = x1 (ix3 b s d) := by
  rw [val_main_v11_apply, val_main_v9_apply]
  have e : idx_main_v9 (idx_main_v11 (ix4 b h s d)) = ix3 b s d := funext fun a => Fin.ext (by
    match a with
    | ⟨0, _⟩ => rfl
    | ⟨1, _⟩ => rfl
    | ⟨2, _⟩ => rfl)
  rw [e]

/-- The sine table broadcast over 32 heads. -/
theorem sinQ_at (x2 : (⟨S2x4096x128, .f32⟩ : BufTy).Contents (Elt Ideal)) (b : Fin 2) (h : Fin 32) (s : Fin 4096) (d : Fin 128) :
    val_main_v17 (F := Ideal) x2 (ix4 b h s d) = x2 (ix3 b s d) := by
  rw [val_main_v17_apply, val_main_v10_apply]
  have e : idx_main_v10 (idx_main_v17 (ix4 b h s d)) = ix3 b s d := funext fun a => Fin.ext (by
    match a with
    | ⟨0, _⟩ => rfl
    | ⟨1, _⟩ => rfl
    | ⟨2, _⟩ => rfl)
  rw [e]

/-- The cosine table broadcast over 8 heads. -/
theorem cosK_at (x1 : (⟨S2x4096x128, .f32⟩ : BufTy).Contents (Elt Ideal)) (b : Fin 2) (h : Fin 8) (s : Fin 4096) (d : Fin 128) :
    val_main_v20 (F := Ideal) x1 (ix4 b h s d) = x1 (ix3 b s d) := by
  rw [val_main_v20_apply, val_main_v9_apply]
  have e : idx_main_v9 (idx_main_v20 (ix4 b h s d)) = ix3 b s d := funext fun a => Fin.ext (by
    match a with
    | ⟨0, _⟩ => rfl
    | ⟨1, _⟩ => rfl
    | ⟨2, _⟩ => rfl)
  rw [e]

/-- The sine table broadcast over 8 heads. -/
theorem sinK_at (x2 : (⟨S2x4096x128, .f32⟩ : BufTy).Contents (Elt Ideal)) (b : Fin 2) (h : Fin 8) (s : Fin 4096) (d : Fin 128) :
    val_main_v26 (F := Ideal) x2 (ix4 b h s d) = x2 (ix3 b s d) := by
  rw [val_main_v26_apply, val_main_v10_apply]
  have e : idx_main_v10 (idx_main_v26 (ix4 b h s d)) = ix3 b s d := funext fun a => Fin.ext (by
    match a with
    | ⟨0, _⟩ => rfl
    | ⟨1, _⟩ => rfl
    | ⟨2, _⟩ => rfl)
  rw [e]

/-! ## The rotated vector at coordinates

The concatenation along the lanes joins minus the upper half of the projection (lanes 64 to 127) with its lower half
(lanes 0 to 63): lane d below 64 reads the first piece at d, that is minus the projection at lane 64 + d; lane d from 64
on reads the second piece at d - 64, the projection at that lane. -/

/-- The rotated query vector. -/
theorem rotQ_at (x0 : (⟨S2x4096x4096, .f32⟩ : BufTy).Contents (Elt Ideal)) (x3 : (⟨S4096x4096, .f32⟩ : BufTy).Contents (Elt Ideal))
    (b : Fin 2) (h : Fin 32) (s : Fin 4096) (d : Fin 128) :
    val_main_v16 (F := Ideal) x0 x3 (ix4 b h s d) = Cert.Spec.rot (Cert.Spec.projQ x0 x3 b h s) d := by
  unfold val_main_v16
  by_cases hd : d.val < 64
  · rw [Cert.Spec.rot_lo _ d hd]
    refine (concatenate_pair_apply_left (t := S2x32x4096x128) (s₁ := S2x32x4096x64) (s₂ := S2x32x4096x64) 3
      (val_main_v15 (F := Ideal) x0 x3) (val_main_v13 (F := Ideal) x0 x3)
      Gen.concatenates_S2x32x4096x64_S2x32x4096x64_S2x32x4096x128_d3 (ix4 b h s d) rfl (ix4 b h s ⟨d.val, hd⟩)
      (fun a => match a with
        | ⟨0, _⟩ => rfl
        | ⟨1, _⟩ => rfl
        | ⟨2, _⟩ => rfl
        | ⟨3, _⟩ => rfl)).trans ?_
    rw [val_main_v15_apply, val_main_v14_apply]
    have e : idx_main_v14 (ix4 b h s (⟨d.val, hd⟩ : Fin 64)) = ix4 b h s (⟨d.val + 64, by omega⟩ : Fin 128) := funext fun a => Fin.ext (by
      match a with
      | ⟨0, _⟩ => rfl
      | ⟨1, _⟩ => rfl
      | ⟨2, _⟩ => rfl
      | ⟨3, _⟩ => show 64 + d.val = d.val + 64; omega)
    rw [e, projQ_at]
    rfl
  · rw [Cert.Spec.rot_hi _ d hd]
    refine (concatenate_pair_apply_right (t := S2x32x4096x128) (s₁ := S2x32x4096x64) (s₂ := S2x32x4096x64) 3
      (val_main_v15 (F := Ideal) x0 x3) (val_main_v13 (F := Ideal) x0 x3)
      Gen.concatenates_S2x32x4096x64_S2x32x4096x64_S2x32x4096x128_d3 (ix4 b h s d) rfl rfl
      (ix4 b h s (⟨d.val - 64, by have := d.isLt; omega⟩ : Fin 64))
      (fun a => match a with
        | ⟨0, _⟩ => fun _ => rfl
        | ⟨1, _⟩ => fun _ => rfl
        | ⟨2, _⟩ => fun _ => rfl
        | ⟨3, _⟩ => fun hne => absurd rfl hne)
      (by show d.val - 64 + 64 = d.val; omega)).trans ?_
    rw [val_main_v13_apply]
    have e : idx_main_v13 (ix4 b h s (⟨d.val - 64, by have := d.isLt; omega⟩ : Fin 64)) = ix4 b h s (⟨d.val - 64, by omega⟩ : Fin 128) := funext fun a => Fin.ext (by
      match a with
      | ⟨0, _⟩ => rfl
      | ⟨1, _⟩ => rfl
      | ⟨2, _⟩ => rfl
      | ⟨3, _⟩ => rfl)
    rw [e, projQ_at]

/-- The rotated key vector. -/
theorem rotK_at (x0 : (⟨S2x4096x4096, .f32⟩ : BufTy).Contents (Elt Ideal)) (x4 : (⟨S1024x4096, .f32⟩ : BufTy).Contents (Elt Ideal))
    (b : Fin 2) (h : Fin 8) (s : Fin 4096) (d : Fin 128) :
    val_main_v25 (F := Ideal) x0 x4 (ix4 b h s d) = Cert.Spec.rot (Cert.Spec.projK x0 x4 b h s) d := by
  unfold val_main_v25
  by_cases hd : d.val < 64
  · rw [Cert.Spec.rot_lo _ d hd]
    refine (concatenate_pair_apply_left (t := S2x8x4096x128) (s₁ := S2x8x4096x64) (s₂ := S2x8x4096x64) 3
      (val_main_v24 (F := Ideal) x0 x4) (val_main_v22 (F := Ideal) x0 x4)
      Gen.concatenates_S2x8x4096x64_S2x8x4096x64_S2x8x4096x128_d3 (ix4 b h s d) rfl (ix4 b h s ⟨d.val, hd⟩)
      (fun a => match a with
        | ⟨0, _⟩ => rfl
        | ⟨1, _⟩ => rfl
        | ⟨2, _⟩ => rfl
        | ⟨3, _⟩ => rfl)).trans ?_
    rw [val_main_v24_apply, val_main_v23_apply]
    have e : idx_main_v23 (ix4 b h s (⟨d.val, hd⟩ : Fin 64)) = ix4 b h s (⟨d.val + 64, by omega⟩ : Fin 128) := funext fun a => Fin.ext (by
      match a with
      | ⟨0, _⟩ => rfl
      | ⟨1, _⟩ => rfl
      | ⟨2, _⟩ => rfl
      | ⟨3, _⟩ => show 64 + d.val = d.val + 64; omega)
    rw [e, projK_at]
    rfl
  · rw [Cert.Spec.rot_hi _ d hd]
    refine (concatenate_pair_apply_right (t := S2x8x4096x128) (s₁ := S2x8x4096x64) (s₂ := S2x8x4096x64) 3
      (val_main_v24 (F := Ideal) x0 x4) (val_main_v22 (F := Ideal) x0 x4)
      Gen.concatenates_S2x8x4096x64_S2x8x4096x64_S2x8x4096x128_d3 (ix4 b h s d) rfl rfl
      (ix4 b h s (⟨d.val - 64, by have := d.isLt; omega⟩ : Fin 64))
      (fun a => match a with
        | ⟨0, _⟩ => fun _ => rfl
        | ⟨1, _⟩ => fun _ => rfl
        | ⟨2, _⟩ => fun _ => rfl
        | ⟨3, _⟩ => fun hne => absurd rfl hne)
      (by show d.val - 64 + 64 = d.val; omega)).trans ?_
    rw [val_main_v22_apply]
    have e : idx_main_v22 (ix4 b h s (⟨d.val - 64, by have := d.isLt; omega⟩ : Fin 64)) = ix4 b h s (⟨d.val - 64, by omega⟩ : Fin 128) := funext fun a => Fin.ext (by
      match a with
      | ⟨0, _⟩ => rfl
      | ⟨1, _⟩ => rfl
      | ⟨2, _⟩ => rfl
      | ⟨3, _⟩ => rfl)
    rw [e, projK_at]

/-- The query result of the reference is `Gq` of the arguments. -/
theorem ref_q (x0 : (⟨S2x4096x4096, .f32⟩ : BufTy).Contents (Elt Ideal)) (x1 x2 : (⟨S2x4096x128, .f32⟩ : BufTy).Contents (Elt Ideal))
    (x3 : (⟨S4096x4096, .f32⟩ : BufTy).Contents (Elt Ideal)) :
    val_main_v19 (F := Ideal) x0 x1 x2 x3 = Cert.Spec.Gq x0 x3 x1 x2 := by
  funext i
  obtain ⟨b, h, s, d, rfl⟩ : ∃ (b : Fin 2) (h : Fin 32) (s : Fin 4096) (d : Fin 128), i = ix4 b h s d :=
    ⟨i 0, i 1, i 2, i 3, eq_ix4 i⟩
  rw [Cert.Spec.Gq_ix4, val_main_v19_apply, val_main_v12_apply, val_main_v18_apply, projQ_at, cosQ_at, rotQ_at, sinQ_at]
  rfl

/-- The key result of the reference is `Gk` of the arguments. -/
theorem ref_k (x0 : (⟨S2x4096x4096, .f32⟩ : BufTy).Contents (Elt Ideal)) (x1 x2 : (⟨S2x4096x128, .f32⟩ : BufTy).Contents (Elt Ideal))
    (x4 : (⟨S1024x4096, .f32⟩ : BufTy).Contents (Elt Ideal)) :
    val_main_v28 (F := Ideal) x0 x1 x2 x4 = Cert.Spec.Gk x0 x4 x1 x2 := by
  funext i
  obtain ⟨b, h, s, d, rfl⟩ : ∃ (b : Fin 2) (h : Fin 8) (s : Fin 4096) (d : Fin 128), i = ix4 b h s d :=
    ⟨i 0, i 1, i 2, i 3, eq_ix4 i⟩
  rw [Cert.Spec.Gk_ix4, val_main_v28_apply, val_main_v21_apply, val_main_v27_apply, projK_at, cosK_at, rotK_at, sinK_at]
  rfl

/-- The value result of the reference is `Gv` of the arguments. -/
theorem ref_v (x0 : (⟨S2x4096x4096, .f32⟩ : BufTy).Contents (Elt Ideal)) (x5 : (⟨S1024x4096, .f32⟩ : BufTy).Contents (Elt Ideal)) :
    val_main_v8 (F := Ideal) x0 x5 = Cert.Spec.Gv x0 x5 := by
  funext i
  obtain ⟨b, h, s, d, rfl⟩ : ∃ (b : Fin 2) (h : Fin 8) (s : Fin 4096) (d : Fin 128), i = ix4 b h s d :=
    ⟨i 0, i 1, i 2, i 3, eq_ix4 i⟩
  rw [Cert.Spec.Gv_ix4]
  exact projV_at x0 x5 b h s d

end Cert.ReferenceIdeal.RefValue

end
-- ==== Proof.lean ====
/-
  The kernel computes the rotary-embedded query and key projections and the value projection of an attention layer
  as three grids of matrix products, one 1024 × 128 block of a result per grid point; the reference computes the same
  three arrays as whole-array products, a reshape to heads, a transpose and the rotary pairing. At the ideal values
  (extended reals, exact operations, format changes the identity) both are the functions of Spec.lean, entry by entry:
  with P (b, h, s, d) = ∑ k, hidden (b, s, k) * W (h * 128 + d, k), the query and key results are
  P d * cos (b, s, d) + rot d * sin (b, s, d), where rot d is -P (d + 64) for d < 64 and P (d - 64) otherwise, and the
  value result is P itself. The kernel writes -x as 0 - x, which is the same extended real; no other law is used, so
  the precondition is never opened.

  The three frames: the two kernel programs' are their generated frame certificates; the reference's is its generated
  run with the results dropped. The idealization rewrote nothing, so `preserves` is trivial. `algebraic`: the kernel
  program's run with its results read (KernelValue.lean) beside the reference's run read one operation at a time
  (RefValue.lean), both at the same three functions of arguments that agree.
-/
import proofs.«145036_j42640435315444_1_alg».proof.Defs
import proofs.«145036_j42640435315444_1_alg».proof.Proof.Gen.Kernel
import proofs.«145036_j42640435315444_1_alg».proof.Proof.Gen.Kernel.Skeleton
import proofs.«145036_j42640435315444_1_alg».proof.Proof.Gen.Kernel.Launch
import proofs.«145036_j42640435315444_1_alg».proof.Proof.Gen.Kernel.Points
import proofs.«145036_j42640435315444_1_alg».proof.Proof.Gen.Kernel.Frame
import proofs.«145036_j42640435315444_1_alg».proof.Proof.Gen.KernelIdeal
import proofs.«145036_j42640435315444_1_alg».proof.Proof.Gen.KernelIdeal.Skeleton
import proofs.«145036_j42640435315444_1_alg».proof.Proof.Gen.KernelIdeal.Launch
import proofs.«145036_j42640435315444_1_alg».proof.Proof.Gen.KernelIdeal.Points
import proofs.«145036_j42640435315444_1_alg».proof.Proof.Gen.KernelIdeal.Frame
import proofs.«145036_j42640435315444_1_alg».proof.Proof.Gen.ReferenceIdeal
import proofs.«145036_j42640435315444_1_alg».proof.Proof.Gen.ReferenceIdeal.Run
import proofs.«145036_j42640435315444_1_alg».proof.Proof.Gen.ReferenceIdeal.Read
import proofs.«145036_j42640435315444_1_alg».proof.Proof.Gen.Pre_finite_inputs
import proofs.«145036_j42640435315444_1_alg».proof.Proof.Spec
import proofs.«145036_j42640435315444_1_alg».proof.Proof.KernelValue
import proofs.«145036_j42640435315444_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the query, key and value results at `Gq`, `Gk`, `Gv` of the kernel program's arguments:
    the kernel program by its run with the results read, the reference by its run, its three result terms being those
    functions of its own arguments, which agree with the kernel program's. -/
theorem algebraic : Cert.algebraic_KernelIdeal_ReferenceIdeal := by
  intro m ρ m' ρ' _ hagree
  refine ⟨_, _, _, Cert.KernelIdeal.KValue.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v19_eq, Cert.ReferenceIdeal.RefValue.ref_q,
      (hagree c).1, (hagree c).2.1, (hagree c).2.2.1, (hagree c).2.2.2.1]
  · rw [Cert.ReferenceIdeal.Read.val_main_v28_eq, Cert.ReferenceIdeal.RefValue.ref_k,
      (hagree c).1, (hagree c).2.1, (hagree c).2.2.1, (hagree c).2.2.2.2.1]
  · rw [Cert.ReferenceIdeal.Read.val_main_v8_eq, Cert.ReferenceIdeal.RefValue.ref_v,
      (hagree c).1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
